-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S256x64 : Shape := ⟨2, ![256, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S4x16x4096x64 .f32) (main_arg1 : FVec F S4x16x4096x64 .f32) (main_arg2 : FVec F S4x16x4096x64 .f32) (main_arg3 : FVec F S256x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S4x16x4096x64 : Shape := ⟨4, ![4, 16, 4096, 64]⟩
abbrev S256x64 : Shape := ⟨2, ![256, 64]⟩
abbrev S64x4096x64 : Shape := ⟨3, ![64, 4096, 64]⟩
abbrev S64x256 : Shape := ⟨2, ![64, 256]⟩
abbrev S262144x64 : Shape := ⟨2, ![262144, 64]⟩
abbrev S1x1 : Shape := ⟨2, ![1, 1]⟩
abbrev S8192x64 : Shape := ⟨2, ![8192, 64]⟩
abbrev S8192x256 : Shape := ⟨2, ![8192, 256]⟩
abbrev S8192 : Shape := ⟨1, ![8192]⟩
abbrev S8192x1 : Shape := ⟨2, ![8192, 1]⟩
abbrev S1 : Shape := ⟨1, ![1]⟩
abbrev S64x256x64 : Shape := ⟨3, ![64, 256, 64]⟩
abbrev S1x2048x64 : Shape := ⟨3, ![1, 2048, 64]⟩
abbrev S1x256x64 : Shape := ⟨3, ![1, 256, 64]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩

abbrev nBuf : Space → Nat
  | .hbm => 13
  | .vmem => 20
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S256x64, .f32⟩
  | .hbm, ⟨4, _⟩ => ⟨S64x4096x64, .f32⟩
  | .hbm, ⟨5, _⟩ => ⟨S64x4096x64, .f32⟩
  | .hbm, ⟨6, _⟩ => ⟨S64x4096x64, .f32⟩
  | .hbm, ⟨7, _⟩ => ⟨S64x256, .f32⟩
  | .hbm, ⟨8, _⟩ => ⟨S262144x64, .f32⟩
  | .hbm, ⟨9, _⟩ => ⟨S1x1, .f32⟩
  | .hbm, ⟨10, _⟩ => ⟨S64x256x64, .f32⟩
  | .hbm, ⟨11, _⟩ => ⟨S64x4096x64, .f32⟩
  | .hbm, ⟨12, _⟩ => ⟨S4x16x4096x64, .f32⟩
  | .local _ .vmem, ⟨0, _⟩ => ⟨S8192x64, .f32⟩
  | .local _ .vmem, ⟨1, _⟩ => ⟨S8192x64, .f32⟩
  | .local _ .vmem, ⟨2, _⟩ => ⟨S64x256, .f32⟩
  | .local _ .vmem, ⟨3, _⟩ => ⟨S1x1, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S64x256, .f32⟩
  | .local _ .vmem, ⟨9, _⟩ => ⟨S1x1, .f32⟩
  | .local _ .vmem, ⟨10, _⟩ => ⟨S1x256x64, .f32⟩
  | .local _ .vmem, ⟨11, _⟩ => ⟨S1x256x64, .f32⟩
  | .local _ .vmem, ⟨12, _⟩ => ⟨S1x256x64, .f32⟩
  | .local _ .vmem, ⟨13, _⟩ => ⟨S1x2048x64, .f32⟩
  | .local _ .vmem, ⟨14, _⟩ => ⟨S1x2048x64, .f32⟩
  | .local _ .vmem, ⟨15, _⟩ => ⟨S64x256, .f32⟩
  | .local _ .vmem, ⟨16, _⟩ => ⟨S1x256x64, .f32⟩
  | .local _ .vmem, ⟨17, _⟩ => ⟨S1x256x64, .f32⟩
  | .local _ .vmem, ⟨18, _⟩ => ⟨S1x2048x64, .f32⟩
  | .local _ .vmem, ⟨19, _⟩ => ⟨S1x2048x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_6 : BitVec 32 := 0#32
  let v15 : BitVec 1 := Scalar.cmpi .ne v14 c0_i32_6
  v15

def k0_cond2 (i : grid0.Coords) : BitVec 1 :=
  let arg0 : BitVec 32 := BitVec.ofNat 32 (i 0).val
  let c0_i32_7 : BitVec 32 := 0#32
  let v16 : BitVec 1 := Scalar.cmpi .ne arg0 c0_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![64, 2], ![false, false]⟩

def k1_cond2 (i : grid1.Coords) : BitVec 1 :=
  let arg1 : BitVec 32 := BitVec.ofNat 32 (i 1).val
  let c1_i32 : BitVec 32 := 1#32
  let v39 : BitVec 1 := Scalar.cmpi .eq arg1 c1_i32
  let v40 : BitVec 32 := Scalar.extui v39
  let c0_i32_22 : BitVec 32 := 0#32
  let v41 : BitVec 1 := Scalar.cmpi .ne v40 c0_i32_22
  v41

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![64, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x16x4096x64_S64x4096x64 : S4x16x4096x64.ShapeCasts S64x4096x64
  transposes_S256x64_S64x256_1_0 : S256x64.Transposes [1, 0] S64x256
  shapeCasts_S64x4096x64_S262144x64 : S64x4096x64.ShapeCasts S262144x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  reduces_S8192x256_S8192 : S8192x256.Reduces [1] S8192
  shapeCasts_S8192_S8192x1 : S8192.ShapeCasts S8192x1
  reduces_S8192x1_S1 : S8192x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S2048x64_S2048 : S2048x64.Reduces [1] S2048
  shapeCasts_S2048_S2048x1 : S2048.ShapeCasts S2048x1
  broadcasts_S2048x1_S2048x256 : S2048x1.Broadcasts S2048x256
  broadcasts_S1x1_S2048x256 : S1x1.Broadcasts S2048x256
  shapeCasts_S256x64_S1x256x64 : S256x64.ShapeCasts S1x256x64
  reduces_S2048x256_S2048 : S2048x256.Reduces [1] S2048
  shapeCasts_S1x256x64_S256x64 : S1x256x64.ShapeCasts S256x64
  shapeCasts_S2048x64_S1x2048x64 : S2048x64.ShapeCasts S1x2048x64
  shapeCasts_S64x4096x64_S4x16x4096x64 : S64x4096x64.ShapeCasts S4x16x4096x64
  dot_S8192x64_S64x256_S8192x256_1_0_0_1_n_n_wf : DotDims.WF S8192x64 S64x256 S8192x256 [1] [0] [0] [1] [] []
  dot_S2048x64_S64x256_S2048x256_1_0_0_1_n_n_wf : DotDims.WF S2048x64 S64x256 S2048x256 [1] [0] [0] [1] [] []
  dot_S2048x256_S2048x64_S256x64_0_0_1_1_n_n_wf : DotDims.WF S2048x256 S2048x64 S256x64 [0] [0] [1] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S64x4096x64.size a
  hwx1_0 : ∀ i : grid1.Coords, EltTy.bits .f32 = 32 ∨ (Rect.block (s := S64x4096x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x4096x64.size a
  hwx1_1 : ∀ i : grid1.Coords, EltTy.bits .f32 = 32 ∨ (Rect.block (s := S64x4096x64) S1x2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S64x256x64.size a
  hwx1_4 : ∀ i : grid1.Coords, EltTy.bits .f32 = 32 ∨ (Rect.block (s := S64x256x64) S1x256x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S64x4096x64.size a
  hwx2_0 : ∀ i : grid2.Coords, EltTy.bits .f32 = 32 ∨ (Rect.block (s := S64x4096x64) S1x2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x64.size a ≤ S64x256x64.size a
  hwx2_2 : ∀ i : grid2.Coords, EltTy.bits .f32 = 32 ∨ (Rect.block (s := S64x256x64) S1x256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x64.size a ≤ S64x4096x64.size a
  hwx2_3 : ∀ i : grid2.Coords, EltTy.bits .f32 = 32 ∨ (Rect.block (s := S64x4096x64) S1x2048x64.size (cc2_transform_3 i) (hinb2_3 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S2048x64_S256x64_0_0_1_1_n_n : DotDims S2048x256 S2048x64 S256x64 where
  lhsContracting := [0]
  rhsContracting := [0]
  lhsNonContracting := [1]
  rhsNonContracting := [1]
  lhsBatch := []
  rhsBatch := []
  wf := dot_S2048x256_S2048x64_S256x64_0_0_1_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v4) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v1) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x256x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x16x4096x64 : Shape := ⟨4, ![4, 16, 4096, 64]⟩
abbrev S256x64 : Shape := ⟨2, ![256, 64]⟩
abbrev S_ : Shape := ⟨0, ![]⟩
abbrev S4x16x4096x256 : Shape := ⟨4, ![4, 16, 4096, 256]⟩
abbrev S4x16x4096 : Shape := ⟨3, ![4, 16, 4096]⟩
abbrev S4x16x4096x1 : Shape := ⟨4, ![4, 16, 4096, 1]⟩
abbrev S4x16x256x64 : Shape := ⟨4, ![4, 16, 256, 64]⟩

abbrev nBuf : Space → Nat
  | .hbm => 55
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S256x64, .f32⟩
  | .hbm, ⟨4, _⟩ => ⟨S_, .f32⟩
  | .hbm, ⟨5, _⟩ => ⟨S4x16x4096x64, .f32⟩
  | .hbm, ⟨6, _⟩ => ⟨S4x16x4096x64, .f32⟩
  | .hbm, ⟨7, _⟩ => ⟨S4x16x4096x256, .f32⟩
  | .hbm, ⟨8, _⟩ => ⟨S4x16x4096x64, .f32⟩
  | .hbm, ⟨9, _⟩ => ⟨S_, .f32⟩
  | .hbm, ⟨10, _⟩ => ⟨S4x16x4096, .f32⟩
  | .hbm, ⟨11, _⟩ => ⟨S4x16x4096x1, .f32⟩
  | .hbm, ⟨12, _⟩ => ⟨S_, .f32⟩
  | .hbm, ⟨13, _⟩ => ⟨S4x16x4096x1, .f32⟩
  | .hbm, ⟨14, _⟩ => ⟨S4x16x4096x1, .f32⟩
  | .hbm, ⟨15, _⟩ => ⟨S_, .f32⟩
  | .hbm, ⟨16, _⟩ => ⟨S4x16x4096, .f32⟩
  | .hbm, ⟨17, _⟩ => ⟨S4x16x4096x1, .f32⟩
  | .hbm, ⟨18, _⟩ => ⟨S4x16x4096x256, .f32⟩
  | .hbm, ⟨19, _⟩ => ⟨S4x16x4096x256, .f32⟩
  | .hbm, ⟨20, _⟩ => ⟨S4x16x4096x256, .f32⟩
  | .hbm, ⟨21, _⟩ => ⟨S4x16x4096x256, .f32⟩
  | .hbm, ⟨22, _⟩ => ⟨S4x16x4096x256, .f32⟩
  | .hbm, ⟨23, _⟩ => ⟨S_, .f32⟩
  | .hbm, ⟨24, _⟩ => ⟨S4x16x4096x256, .f32⟩
  | .hbm, ⟨25, _⟩ => ⟨S4x16x4096x256, .f32⟩
  | .hbm, ⟨26, _⟩ => ⟨S_, .f32⟩
  | .hbm, ⟨27, _⟩ => ⟨S4x16x4096x256, .f32⟩
  | .hbm, ⟨28, _⟩ => ⟨S4x16x4096x256, .f32⟩
  | .hbm, ⟨29, _⟩ => ⟨S_, .f32⟩
  | .hbm, ⟨30, _⟩ => ⟨S4x16x4096x64, .f32⟩
  | .hbm, ⟨31, _⟩ => ⟨S4x16x4096x64, .f32⟩
  | .hbm, ⟨32, _⟩ => ⟨S4x16x4096x256, .f32⟩
  | .hbm, ⟨33, _⟩ => ⟨S4x16x4096x64, .f32⟩
  | .hbm, ⟨34, _⟩ => ⟨S_, .f32⟩
  | .hbm, ⟨35, _⟩ => ⟨S4x16x4096, .f32⟩
  | .hbm, ⟨36, _⟩ => ⟨S4x16x4096x1, .f32⟩
  | .hbm, ⟨37, _⟩ => ⟨S_, .f32⟩
  | .hbm, ⟨38, _⟩ => ⟨S4x16x4096x1, .f32⟩
  | .hbm, ⟨39, _⟩ => ⟨S4x16x4096x1, .f32⟩
  | .hbm, ⟨40, _⟩ => ⟨S_, .f32⟩
  | .hbm, ⟨41, _⟩ => ⟨S_, .f32⟩
  | .hbm, ⟨42, _⟩ => ⟨S4x16x4096x256, .f32⟩
  | .hbm, ⟨43, _⟩ => ⟨S4x16x4096x256, .f32⟩
  | .hbm, ⟨44, _⟩ => ⟨S4x16x4096x256, .f32⟩
  | .hbm, ⟨45, _⟩ => ⟨S4x16x4096x256, .f32⟩
  | .hbm, ⟨46, _⟩ => ⟨S4x16x4096x256, .f32⟩
  | .hbm, ⟨47, _⟩ => ⟨S_, .f32⟩
  | .hbm, ⟨48, _⟩ => ⟨S4x16x4096x256, .f32⟩
  | .hbm, ⟨49, _⟩ => ⟨S4x16x4096x256, .f32⟩
  | .hbm, ⟨50, _⟩ => ⟨S_, .f32⟩
  | .hbm, ⟨51, _⟩ => ⟨S4x16x4096x256, .f32⟩
  | .hbm, ⟨52, _⟩ => ⟨S4x16x4096x256, .f32⟩
  | .hbm, ⟨53, _⟩ => ⟨S4x16x256x64, .f32⟩
  | .hbm, ⟨54, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S_S4x16x4096x64 : S_.BroadcastsInDim S4x16x4096x64 (![] : Fin 0 → Fin S4x16x4096x64.rank)
  reducesTo_S4x16x4096x64_S4x16x4096_d3 : S4x16x4096x64.ReducesTo [3] S4x16x4096
  h_S_ : 0 < S_.numel
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  reducesTo_S4x16x4096x256_S4x16x4096_d3 : S4x16x4096x256.ReducesTo [3] S4x16x4096
  bcast_S4x16x4096x1_S4x16x4096x256_0_1_2_3 : S4x16x4096x1.BroadcastsInDim S4x16x4096x256 (![0, 1, 2, 3] : Fin 4 → Fin S4x16x4096x256.rank)
  bcast_S_S4x16x4096x256 : S_.BroadcastsInDim S4x16x4096x256 (![] : Fin 0 → Fin S4x16x4096x256.rank)
  reducesTo_S4x16x4096x256_S_d0_1_2_3 : S4x16x4096x256.ReducesTo [0, 1, 2, 3] S_
  dot_S4x16x4096x64_S256x64_S4x16x4096x256_3_1_012_0_n_n_wf : DotDims.WF S4x16x4096x64 S256x64 S4x16x4096x256 [3] [1] [0, 1, 2] [0] [] []
  dot_S4x16x4096x256_S4x16x4096x64_S4x16x256x64_2_2_3_3_01_01_wf : DotDims.WF S4x16x4096x256 S4x16x4096x64 S4x16x256x64 [2] [2] [3] [3] [0, 1] [0, 1]
  dot_S4x16x4096x256_S4x16x256x64_S4x16x4096x64_3_2_2_3_01_01_wf : DotDims.WF S4x16x4096x256 S4x16x256x64 S4x16x4096x64 [3] [2] [2] [3] [0, 1] [0, 1]

variable [Facts₀]

def dot_S4x16x4096x64_S256x64_S4x16x4096x256_3_1_012_0_n_n : DotDims S4x16x4096x64 S256x64 S4x16x4096x256 where
  lhsContracting := [3]
  rhsContracting := [1]
  lhsNonContracting := [0, 1, 2]
  rhsNonContracting := [0]
  lhsBatch := []
  rhsBatch := []
  wf := dot_S4x16x4096x64_S256x64_S4x16x4096x256_3_1_012_0_n_n_wf
def dot_S4x16x4096x256_S4x16x4096x64_S4x16x256x64_2_2_3_3_01_01 : DotDims S4x16x4096x256 S4x16x4096x64 S4x16x256x64 where
  lhsContracting := [2]
  rhsContracting := [2]
  lhsNonContracting := [3]
  rhsNonContracting := [3]
  lhsBatch := [0, 1]
  rhsBatch := [0, 1]
  wf := dot_S4x16x4096x256_S4x16x4096x64_S4x16x256x64_2_2_3_3_01_01_wf
def dot_S4x16x4096x256_S4x16x256x64_S4x16x4096x64_3_2_2_3_01_01 : DotDims S4x16x4096x256 S4x16x256x64 S4x16x4096x64 where
  lhsContracting := [3]
  rhsContracting := [2]
  lhsNonContracting := [2]
  rhsNonContracting := [3]
  lhsBatch := [0, 1]
  rhsBatch := [0, 1]
  wf := dot_S4x16x4096x256_S4x16x256x64_S4x16x4096x64_3_2_2_3_01_01_wf

class Facts : Prop extends Facts₀ where

variable [Facts]
-- ==== Proof.K.Reg0.lean ====
/-
  The first kernel region: the largest logit of all the keys' rows, 8192 rows at a grid point, 32 points.
  At every point the body takes the block's own maximum (a matrix product of the scaled rows with the transposed
  projection, then the maximum over the 256 columns and over the 8192 rows). At the first point it stores that into
  its one-element output buffer; at every later point it reads the buffer back and stores the larger of the two. The
  buffer is written back to its array after the last point only, so between points it holds the running maximum
  (`gacc0`), which is what the proof data records and what the body is shown to leave.
-/
import proofs.«103724_j47090021433765_1_alg».proof.Proof.Gen.Kernel.Launch
import proofs.«103724_j47090021433765_1_alg».proof.Proof.Gen.Kernel.Skeleton
import proofs.«103724_j47090021433765_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the first kernel region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the one-element output buffer holds after point `n`: at the first point the block's own maximum, afterwards
    the larger of what the point before left and this block's maximum. -/
def gacc0 (c : Dev nD) : (n : ℕ) → n < cfg0.N → Vec F S1x1 .f32
  | 0, hn => k0_pay1 (iblk0 V c 0 ⟨0, hn⟩) (iblk0 V c 1 ⟨0, hn⟩)
  | n + 1, hn => k0_pay2 (iblk0 V c 0 ⟨n + 1, hn⟩) (iblk0 V c 1 ⟨n + 1, hn⟩) (gacc0 c n (Nat.lt_of_succ_lt hn))

theorem gacc0_zero (c : Dev nD) (hn : 0 < cfg0.N) :
    gacc0 V c 0 hn = k0_pay1 (iblk0 V c 0 ⟨0, hn⟩) (iblk0 V c 1 ⟨0, hn⟩) := rfl
theorem gacc0_succ (c : Dev nD) (n : ℕ) (hn : n + 1 < cfg0.N) :
    gacc0 V c (n + 1) hn = k0_pay2 (iblk0 V c 0 ⟨n + 1, hn⟩) (iblk0 V c 1 ⟨n + 1, hn⟩) (gacc0 V c n (Nat.lt_of_succ_lt hn)) := rfl

/-- The proof data of the first region: the inputs' buffers keep their blocks; the output's buffer is the running
    maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => gacc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = gacc0 V c t.val t.isLt := by dsimp only [dat0]

/-! ## The body's two guards over the grid -/

/-- The first conditional's guard holds at the first point only; -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- the second's at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two guards holds at every coordinate, so the body stores into the output's buffer everywhere. -/
theorem live0_2 : ∀ i : grid0.Coords, cfg0.idle 2 i = false := by decide +kernel
/-- The output's block is written back at the last point only. -/
theorem noflush0_2 : ∀ t : Fin cfg0.N, t.val ≠ 31 → (cfg0.win 2).flush t = false :=
  (by decide +kernel : ∀ t : Fin grid0.N, t.val ≠ 31 → win0_2.flush t = false)

/-! ## What the output's buffer holds after a point, case by case -/

/-- After the first point: the first block's maximum. -/
theorem gacc0_first (c : Dev nD) (t : Fin cfg0.N) (hz : t.val = 0) :
    gacc0 V c t.val t.isLt = k0_pay1 (iblk0 V c 0 t) (iblk0 V c 1 t) := by
  obtain ⟨n, hn⟩ := t
  cases n with
  | zero => rfl
  | succ n => exact absurd hz (Nat.succ_ne_zero _)

/-- After a later point: the larger of what the point before left and this block's maximum. -/
theorem gacc0_later (c : Dev nD) (t : Fin cfg0.N) (hz : t.val ≠ 0) :
    gacc0 V c t.val t.isLt
      = k0_pay2 (iblk0 V c 0 t) (iblk0 V c 1 t) (gacc0 V c (t.val - 1) (Nat.lt_of_le_of_lt (Nat.sub_le _ _) t.isLt)) := by
  obtain ⟨n, hn⟩ := t
  cases n with
  | zero => exact absurd rfl hz
  | succ n => rfl

/-! ## What the body finds in each window's buffer -/

/-- The keys' buffer holds the point's block, fetched at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The projection's buffer holds its one block at every point: fetched once, the block index never moves. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Before the first point the output's buffer holds anything. -/
theorem before0_2_first (c : Dev nD) (t : Fin cfg0.N) (hz : t.val = 0) (d) : (dat0 V c).before 2 t d = d :=
  (dat0 V c).before_out_reset 2 rfl t (.inl hz) d

/-- Before a later point it holds what the point before left: the block is written back after the last point only,
    the body stores into the buffer at every point, and the window is not cut. -/
theorem before0_2_later (c : Dev nD) (t : Fin cfg0.N) (hz : t.val ≠ 0) (d) :
    (dat0 V c).before 2 t d = gacc0 V c (t.val - 1) (Nat.lt_of_le_of_lt (Nat.sub_le _ _) t.isLt) := by
  have hN : t.val < 32 := lt_of_lt_of_eq t.isLt (show cfg0.N = 32 from N_0)
  rw [Dat.before_out_kept _ 2 rfl t hz (noflush0_2 _ (by show t.val - 1 ≠ 31; omega)) live0_2 (fun _ _ => rfl)]
  exact after0_2 V c _

/-! ## The body's two runs -/

/-- The whole-shape rectangle's offsets are zero on both axes. -/
theorem off2_zero : (![0, 0] : Fin 2 → Nat) = fun _ => 0 := by
  funext a; fin_cases a <;> rfl

/-- One store through the whole one-element buffer covers it. -/
theorem cover0_out (w : Vec F S1x1 .f32) (y : S1x1.Idx) :
    ∃ pc ∈ ([⟨Rect.unit (s := S1x1) ![0, 0] S1x1.size inb_S1x1_S1x1_0_0, w⟩] : List (View.Piece (Elt F) S1x1 .f32)), y ∈ pc.1.set :=
  ⟨_, List.mem_singleton_self _, View.mem_set_unit_zero off2_zero inb_S1x1_S1x1_0_0 y⟩

set_option maxHeartbeats 1000000 in
/-- At the first point: both inputs are loaded whole, the first guard holds and the block's maximum is stored through
    the whole output buffer, whatever it held; the second guard fails. -/
theorem run_first (c : Dev nD) (E : Set ℕ) (i : grid0.Coords)
    (arg1 : Memref sig .tc .vmem S8192x64 .f32) (harg1 : arg1.IsWhole) (arg2 : Memref sig .tc .vmem S64x256 .f32) (harg2 : arg2.IsWhole)
    (arg3 : Memref sig .tc .vmem S1x1 .f32) (harg3 : arg3.IsWhole)
    (hc1 : k0_cond1 i = 1#1) (hc2 : ¬ k0_cond2 i = 1#1)
    (x0 : Vec F S8192x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__max_kernel i arg1 harg1 arg2 harg2 arg3 harg3) K := by
  simp only [cc0__max_kernel_eq_skeleton]; unfold cc0__max_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_out _), View.canon_unit_zero off2_zero]
  simp only [View.readAt_eq_ld, View.ld_unit_zero (S := S8192x64) off2_zero, View.ld_unit_zero (S := S64x256) off2_zero]

set_option maxHeartbeats 1000000 in
/-- At a later point: both inputs are loaded whole, the first guard fails, the second holds: the output buffer is
    loaded whole and the larger of it and the block's maximum stored back through all of it. -/
theorem run_later (c : Dev nD) (E : Set ℕ) (i : grid0.Coords)
    (arg1 : Memref sig .tc .vmem S8192x64 .f32) (harg1 : arg1.IsWhole) (arg2 : Memref sig .tc .vmem S64x256 .f32) (harg2 : arg2.IsWhole)
    (arg3 : Memref sig .tc .vmem S1x1 .f32) (harg3 : arg3.IsWhole)
    (hc1 : ¬ k0_cond1 i = 1#1) (hc2 : k0_cond2 i = 1#1)
    (x0 : Vec F S8192x64 .f32) (x1 : Vec F S64x256 .f32) (a : Vec F S1x1 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1
            ∗ owns (c : Thread nD τ) arg3 fullShare (k0_pay2 x0 x1 a)) -∗ K ⟨⟩))
      ⊢ wp frame (wpE (defs₀ (F := F)) Variants.none c none) E (cc0__max_kernel i arg1 harg1 arg2 harg2 arg3 harg3) K := by
  simp only [cc0__max_kernel_eq_skeleton]; unfold cc0__max_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_out _), View.canon_unit_zero off2_zero]
  simp only [View.readAt_eq_ld, View.ld_unit_zero (S := S8192x64) off2_zero, View.ld_unit_zero (S := S64x256) off2_zero,
    View.ld_unit_zero (S := S1x1) off2_zero]

/-! ## The body obligation -/

/-- What the body is called with at point `t`: the invariant, what the core owes, and each window's current buffer
    at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1000000 in
/-- The body at any point. The inputs' buffers hold their blocks. At the first point the output's buffer holds
    anything and the first run leaves the block's maximum in it; at a later point it holds what the point before
    left and the second run leaves the larger of that and the block's maximum. The invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from by
      unfold Dat.leavesExact; rw [live0_2],
    after0_0, after0_1, after0_2]
  by_cases hz : t.val = 0
  · rw [gacc0_first V c t hz]
    simp only [before0_2_first V c t hz]
    iintro ⟨HΦ, Ho, ⟨%d0, H0⟩, ⟨%d1, H1⟩, ⟨%d2, H2⟩⟩
    iapply (run_first c Set.univ (grid0.coords t) _ _ _ _ _ _ ((hcond0_1 t).mpr hz) (fun h => (hcond0_2 t).mp h hz)
      (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [gacc0_later V c t hz]
    simp only [before0_2_later V c t hz]
    iintro ⟨HΦ, Ho, ⟨%d0, H0⟩, ⟨%d1, H1⟩, ⟨%d2, H2⟩⟩
    iapply (run_later c Set.univ (grid0.coords t) _ _ _ _ _ _ (fun h => hz ((hcond0_1 t).mp h)) ((hcond0_2 t).mpr hz)
      (iblk0 V c 0 t) (iblk0 V c 1 t) (gacc0 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Defs.lean ====
/-
  The second kernel region, its data: each head's context, accumulated over the head's two tiles of 2048 rows.
  A grid point is (head, tile). The body zeroes a scratch accumulator at a head's first tile, adds the tile's
  contribution (the key features, transposed, times the value rows) to it at both tiles, and at the second tile copies
  the accumulator into the output buffer, which is then written back. So the accumulator after point `n` is `sacc1 n`:
  zero plus this tile's contribution at an even point, the point before plus this tile's at an odd one. The region's
  invariant carries the accumulator from point to point; the output window is consulted at odd points only.
-/
import proofs.«103724_j47090021433765_1_alg».proof.Proof.Gen.Kernel.Launch
import proofs.«103724_j47090021433765_1_alg».proof.Proof.Gen.Kernel.Skeleton
import proofs.«103724_j47090021433765_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the second kernel region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One tile's contribution to its head's context: the features of the tile's 2048 key rows against its value rows. -/
def contrib1 (c : Dev nD) (t : Fin cfg1.N) : FVec F S1x256x64 .f32 :=
  k1_pay3 (iblk1 V c 0 t) (iblk1 V c 1 t) (iblk1 V c 2 t) (iblk1 V c 3 t)

/-- What the scratch accumulator holds after point `n`: at a head's first tile (even `n`) zero plus the tile's
    contribution, at its second tile what the point before left plus the tile's contribution. -/
def sacc1 (c : Dev nD) : (n : ℕ) → n < cfg1.N → Vec F S1x256x64 .f32
  | 0, hn => k1_pay1 (k1_pay2 (F := F)) (contrib1 V c ⟨0, hn⟩)
  | n + 1, hn =>
    if (n + 1) % 2 = 0 then k1_pay1 (k1_pay2 (F := F)) (contrib1 V c ⟨n + 1, hn⟩)
    else k1_pay1 (sacc1 c n (Nat.lt_of_succ_lt hn)) (contrib1 V c ⟨n + 1, hn⟩)

theorem sacc1_even (c : Dev nD) (t : Fin cfg1.N) (h : t.val % 2 = 0) :
    sacc1 V c t.val t.isLt = k1_pay1 (k1_pay2 (F := F)) (contrib1 V c t) := by
  obtain ⟨n, hn⟩ := t
  cases n with
  | zero => rfl
  | succ n => exact if_pos h

theorem sacc1_odd (c : Dev nD) (t : Fin cfg1.N) (h : t.val % 2 = 1) :
    sacc1 V c t.val t.isLt
      = k1_pay1 (sacc1 V c (t.val - 1) (Nat.lt_of_le_of_lt (Nat.sub_le _ _) t.isLt)) (contrib1 V c t) := by
  obtain ⟨n, hn⟩ := t
  cases n with
  | zero => exact absurd h (by simp)
  | succ n => exact if_neg (by dsimp only at h; omega)

/-- The scratch accumulator's memref. -/
abbrev scM1 : Memref sig .tc .vmem S1x256x64 .f32 := Memref.whole cc1_scratch0

/-- The core's scoped buffers that are neither a staging buffer of this region nor its scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's invariant before position `n`: before the first point every scoped buffer that is no staging buffer
    at some contents and the generator register at some state; afterwards the same with the scratch accumulator at
    what the point before left in it. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (sacc1 V c n hn) ∗ (∃ r, prngReg c r))

/-- The proof data of the second region: the inputs' buffers keep their blocks; the output's buffer holds the
    accumulator (consulted only at a head's second tile, where the body copies the accumulator into it and the block is
    written back); the invariant carries the accumulator from point to point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => sacc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = sacc1 V c t.val t.isLt := by dsimp only [dat1]

end Cert.Kernel.Hand

end
-- ==== Proof.K.Reg2.lean ====
/-
  The third kernel region: a tile's 2048 output rows from its query rows, the transposed projection and the head's
  context. One value is stored, whole, into the output buffer at every point, and every point writes its block back:
  nothing is carried between points.
-/
import proofs.«103724_j47090021433765_1_alg».proof.Proof.Gen.Kernel.Launch
import proofs.«103724_j47090021433765_1_alg».proof.Proof.Gen.Kernel.Skeleton
import proofs.«103724_j47090021433765_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the third kernel region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the third region: the inputs' buffers keep their blocks, the output's buffer holds the body's one
    stored value, computed from the three input blocks of the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]

/-! ## The inputs' staging buffers hold their blocks -/

/-- The queries' staging buffer holds the point's block: an input, never idle, uncut, left in place by the body. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The projection's staging buffer holds its one block at every point, though fetched at the first only. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The context's staging buffer holds the head's block at both points of the head, though fetched at the even one only. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body's triple -/

/-- The zero offsets of a whole-buffer access, as the constant function. -/
private theorem zeros2 : (![0, 0] : Fin 2 → ℕ) = fun _ => 0 := funext fun a => by fin_cases a <;> rfl
private theorem zeros3 : (![0, 0, 0] : Fin 3 → ℕ) = fun _ => 0 := funext fun a => by fin_cases a <;> rfl

set_option maxHeartbeats 1000000 in
/-- The body on whole staging memrefs, the three inputs' at read contents `x0`, `x1`, `x2` and the output's at anything,
    runs to the continuation holding the inputs' as they were and the output's at the one stored value. -/
theorem sound_kernel2 (c : Dev nD) (E : Set ℕ) (i : grid2.Coords)
    (arg2 : Memref sig .tc .vmem S1x2048x64 .f32) (harg2 : arg2.IsWhole)
    (arg3 : Memref sig .tc .vmem S64x256 .f32) (harg3 : arg3.IsWhole)
    (arg4 : Memref sig .tc .vmem S1x256x64 .f32) (harg4 : arg4.IsWhole)
    (arg5 : Memref sig .tc .vmem S1x2048x64 .f32) (harg5 : arg5.IsWhole)
    (x0 : Vec F S1x2048x64 .f32) (x1 : Vec F S64x256 .f32) (x2 : Vec F S1x256x64 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k2_pay1 x0 x1 x2)) -∗ K ⟨⟩))
      ⊢ wp frame (wpE (defs₀ (F := F)) Variants.none c none) E (cc2__out_kernel i arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero (S := S1x2048x64) zeros3 inb_S1x2048x64_S1x2048x64_0_0_0 y⟩),
    View.canon_unit_zero (S := S1x2048x64) zeros3]
  simp only [View.readAt_eq_ld, View.ld_unit_zero (S := S1x2048x64) zeros3, View.ld_unit_zero (S := S64x256) zeros2,
    View.ld_unit_zero (S := S1x256x64) zeros3]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of the third region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RunDefs.lean ====
/-
  What the unscoped buffers hold at each boundary of the kernel's program, as a fold from the launch memory: five host
  operations (the heads merged, the projection transposed, the keys flattened), the three kernel regions, one host
  operation (the heads split). A region changes only its windows' arrays; none of the four arguments is a window's
  array or a host operation's result, so each reaches the end as launched.
-/
import proofs.«103724_j47090021433765_1_alg».proof.Proof.K.Reg0
import proofs.«103724_j47090021433765_1_alg».proof.Proof.K.Reg1Defs
import proofs.«103724_j47090021433765_1_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The unscoped buffers' contents at each boundary of @main: a fold from the launch memory

Five host operations, the three kernel regions, one host operation. A host stretch leaves what its operations
compute; a region leaves its windows' arrays at what its write-backs make of them and every other buffer as it was. -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last host stretch: what @main returns with. -/
abbrev W5 : Dev nD → Valuation τ sig (Elt F) := fun c => StableHlo.after hostOps3 (W4 m c)

/-! ## The arguments end as launched -/

/-- Argument 0 reaches the end as launched: no host operation writes it and no region has it among its windows' arrays. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- Argument 1 reaches the end as launched: no host operation writes it and no region has it among its windows' arrays. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- Argument 2 reaches the end as launched: no host operation writes it and no region has it among its windows' arrays. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- Argument 3 reaches the end as launched: no host operation writes it and no region has it among its windows' arrays. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

end Cert.Kernel.Hand

end
-- ==== Proof.K.Reg1.lean ====
/-
  The second kernel region, its body: at a head's first tile the accumulator is overwritten before it is read, so
  what the point before left does not matter; at the second tile it holds what the first left. In both cases the body
  leaves the accumulator at `sacc1` of the point, the input buffers untouched, and the output buffer either as found
  (first tile: the window is idle and not written back) or at the accumulator's contents (second tile).
-/
import proofs.«103724_j47090021433765_1_alg».proof.Proof.Gen.Kernel.Launch
import proofs.«103724_j47090021433765_1_alg».proof.Proof.Gen.Kernel.Skeleton
import proofs.«103724_j47090021433765_1_alg».proof.Proof.Gen.Kernel.Points
import proofs.«103724_j47090021433765_1_alg».proof.Proof.K.Reg1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the second kernel region is entered
variable (V : (c : Dev nD) → (b : Ref sig .tc) → Buf (Elt F) ((c : Thread nD τ).loc b))

/-! ## The body's branch conditions, in closed form over the grid -/

/-- The condition of the first `scf.if` (the tile is its head's first), from the grid coordinates. -/
abbrev cond1_0 (i : grid1.Coords) : Prop :=
  (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the second `scf.if` (the tile is its head's second). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The output window is idle at the even points, -/
theorem idleAt1_4 : ∀ t : Fin cfg1.N, t.val % 2 = 0 → cfg1.idle 4 (grid1.coords t) = true :=
  (by decide +kernel : ∀ t : Fin grid1.N, t.val % 2 = 0 → idle1 4 (grid1.coords t) = true)
/-- live at the odd ones, -/
theorem liveAt1_4 : ∀ t : Fin cfg1.N, t.val % 2 = 1 → cfg1.idle 4 (grid1.coords t) = false :=
  (by decide +kernel : ∀ t : Fin grid1.N, t.val % 2 = 1 → idle1 4 (grid1.coords t) = false)
/-- and not written back at the even ones. -/
theorem noFlush1_4 (t : Fin cfg1.N) (h : t.val % 2 = 0) : (cfg1.win 4).flush t = false := by
  cases hf : (cfg1.win 4).flush t with
  | false => rfl
  | true => exact absurd ((flush1_4 t).mp hf) (by omega)

/-! ## The inputs' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Whole-buffer stores and loads -/

theorem hz3 : (![0, 0, 0] : Fin 3 → Nat) = fun _ => 0 := funext fun a => by fin_cases a <;> rfl
theorem hz2 : (![0, 0] : Fin 2 → Nat) = fun _ => 0 := funext fun a => by fin_cases a <;> rfl

/-- A buffer whose last store wrote it whole reads that store's payload, whatever it held and whatever was stored before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's runs -/

set_option maxHeartbeats 1000000 in
/-- At a head's first tile: the accumulator, at anything, is zeroed and then holds zero plus the tile's contribution; the
    output buffer is not touched. -/
theorem kernelRun1_first (c : Dev nD) (E : Set ℕ) (i : grid1.Coords)
    (arg2 : Memref sig .tc .vmem S1x2048x64 .f32) (harg2 : arg2.IsWhole) (arg3 : Memref sig .tc .vmem S1x2048x64 .f32) (harg3 : arg3.IsWhole)
    (arg4 : Memref sig .tc .vmem S64x256 .f32) (harg4 : arg4.IsWhole) (arg5 : Memref sig .tc .vmem S1x1 .f32) (harg5 : arg5.IsWhole)
    (arg6 : Memref sig .tc .vmem S1x256x64 .f32) (harg6 : arg6.IsWhole) (arg7 : Memref sig .tc .vmem S1x256x64 .f32) (harg7 : arg7.IsWhole)
    (hc0 : cond1_0 i) (hc1 : ¬cond1_1 i)
    (x0 x1 : Vec F S1x2048x64 .f32) (x2 : Vec F S64x256 .f32) (x3 : Vec F S1x1 .f32) (xo : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k1_pay1 (k1_pay2 (F := F)) (k1_pay3 x0 x1 x2 x3))) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%fo, %hfo, H4⟩, ⟨%ds, %fs, -, HS⟩, Hk⟩
  subst hf0 hf1 hf2 hf3 hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists fo; isplitr; · ipureintro; rfl
    iexact H4
  iexists _; isplitr
  swap; · iexact HS
  ipureintro
  rw [read_writes_whole _ _ hz3]
  sl_unfold_words
  simp only [View.readAt_eq_ld, View.readCov_unit_zero (S := S1x256x64) _ hz3, View.ld_unit_zero (S := S1x2048x64) hz3,
    View.ld_unit_zero (S := S64x256) hz2, View.ld_unit_zero (S := S1x1) hz2]

set_option maxHeartbeats 1000000 in
/-- At a head's second tile: the accumulator, at what the first tile left, gains the tile's contribution, and the output
    buffer, at anything, is overwritten whole with the accumulator's contents. -/
theorem kernelRun1_second (c : Dev nD) (E : Set ℕ) (i : grid1.Coords)
    (arg2 : Memref sig .tc .vmem S1x2048x64 .f32) (harg2 : arg2.IsWhole) (arg3 : Memref sig .tc .vmem S1x2048x64 .f32) (harg3 : arg3.IsWhole)
    (arg4 : Memref sig .tc .vmem S64x256 .f32) (harg4 : arg4.IsWhole) (arg5 : Memref sig .tc .vmem S1x1 .f32) (harg5 : arg5.IsWhole)
    (arg6 : Memref sig .tc .vmem S1x256x64 .f32) (harg6 : arg6.IsWhole) (arg7 : Memref sig .tc .vmem S1x256x64 .f32) (harg7 : arg7.IsWhole)
    (hc0 : ¬cond1_0 i) (hc1 : cond1_1 i)
    (x0 x1 : Vec F S1x2048x64 .f32) (x2 : Vec F S64x256 .f32) (x3 : Vec F S1x1 .f32) (xs : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay1 xs (k1_pay3 x0 x1 x2 x3))
            ∗ owns (c : Thread nD τ) arg7 fullShare (k1_pay1 xs (k1_pay3 x0 x1 x2 x3))) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%d6, %fo, -, H4⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_writes_whole _ _ hz3]
    simp only [View.readAt_eq_ld, View.readCov_unit_zero (S := S1x256x64) _ hz3, View.ld_unit_zero (S := S1x2048x64) hz3,
      View.ld_unit_zero (S := S1x256x64) hz3, View.ld_unit_zero (S := S64x256) hz2, View.ld_unit_zero (S := S1x1) hz2]
  iexists _; isplitr
  swap; · iexact HS
  ipureintro
  sl_unfold_words
  rw [read_writes_whole _ _ hz3]
  simp only [View.readAt_eq_ld, View.readCov_unit_zero (S := S1x256x64) _ hz3, View.ld_unit_zero (S := S1x2048x64) hz3,
      View.ld_unit_zero (S := S1x256x64) hz3, View.ld_unit_zero (S := S64x256) hz2, View.ld_unit_zero (S := S1x1) hz2]

/-! ## The invariant, position by position -/

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(rest1 (F := F) c ∗ owns (c : Thread nD τ) scM1 fullShare (sacc1 V c n hn) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c ∗ owns (c : Thread nD τ) scM1 fullShare (sacc1 V c (n - 1) (by omega)) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The launch's invariant hands out the accumulator at some contents beside the other scoped buffers, -/
theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨A1, A2, A3, A4, S, B1, B2, B3, B4, B5, B6, B7⟩, Hg⟩
  isplitl [A1 A2 A3 A4 B1 B2 B3 B4 B5 B6 B7]
  · isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    isplitl [B5]; · iexact B5
    isplitl [B6]; · iexact B6
    iexact B7
  isplitl [S]; · iexact S
  iexact Hg

/-- and takes it back at any. -/
theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨A1, A2, A3, A4, B1, B2, B3, B4, B5, B6, B7⟩, S, Hg⟩
  isplitr [Hg]
  · isplitl [A1]; · iexact A1
    isplitl [A2]; · iexact A2
    isplitl [A3]; · iexact A3
    isplitl [A4]; · iexact A4
    isplitl [S]; · iexact S
    isplitl [B1]; · iexact B1
    isplitl [B2]; · iexact B2
    isplitl [B3]; · iexact B3
    isplitl [B4]; · iexact B4
    isplitl [B5]; · iexact B5
    isplitl [B6]; · iexact B6
    iexact B7
  iexact Hg

/-! ## The body obligation, at a generic point -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks. At an even point (a head's first tile) the invariant
    hands the accumulator at anything — out of the launch's invariant at the very first point, at what the point before
    left afterwards —, the run zeroes it and leaves zero plus the tile's contribution, and the idle output buffer goes back
    as found. At an odd point the invariant hands the accumulator at what the first tile left, the run adds the tile's
    contribution and copies the sum into the output buffer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [PhiS1_castSucc V c t]
  by_cases h : t.val % 2 = 0
  · have hc0 : cond1_0 (grid1.coords t) := (hcond1_0 t).mpr h
    have hc1 : ¬cond1_1 (grid1.coords t) := fun hh => by have := (hcond1_1 t).mp hh; omega
    rw [Dat.leavesExact_idle (dat1 V c) 4 t (idleAt1_4 t h) (noFlush1_4 t h)]
    rw [sacc1_even V c t h]; unfold contrib1
    by_cases hz : t.val = 0
    · rw [PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split c) $$ HΦ
      icases HΦ' with ⟨Hr, HS, Hg⟩
      iapply (kernelRun1_first c Set.univ (grid1.coords t) _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS1_pos V c _ _ hz]
      iintro ⟨⟨Hr, HS, Hg⟩, Ho, ⟨%d0, H0⟩, ⟨%d1, H1⟩, ⟨%d2, H2⟩, ⟨%d3, H3⟩, ⟨%d4, H4⟩⟩
      iapply (kernelRun1_first c Set.univ (grid1.coords t) _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    have hc0 : ¬cond1_0 (grid1.coords t) := fun hh => h ((hcond1_0 t).mp hh)
    have hc1 : cond1_1 (grid1.coords t) := (hcond1_1 t).mpr h1
    rw [show (dat1 V c).leavesExact 4 t = owns (c : Thread nD τ) (st1_4 t) fullShare ((dat1 V c).after 4 t) from by
      unfold Dat.leavesExact; rw [liveAt1_4 t h1], after1_4]
    rw [sacc1_odd V c t h1]; unfold contrib1
    rw [PhiS1_pos V c _ _ hz]
    iintro ⟨⟨Hr, HS, Hg⟩, Ho, ⟨%d0, H0⟩, ⟨%d1, H1⟩, ⟨%d2, H2⟩, ⟨%d3, H3⟩, ⟨%d4, H4⟩⟩
    iapply (kernelRun1_second c Set.univ (grid1.coords t) _ _ _ _ _ _ _ _ _ _ _ _ hc0 hc1 (iblk1 V c 0 t) (iblk1 V c 1 t) (iblk1 V c 2 t) (iblk1 V c 3 t)
      (sacc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    iexact H4

/-- The library's body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA (Val := Elt F) (U := UR sig nD τ) spec1 c ⊢ (dat1 V c).Φ 0 := by
  rw [show (dat1 V c).Φ 0 = PhiS1 V c 0 (Nat.zero_le _) from rfl, PhiS1_zero V c 0 _ rfl]

/-- After the last point the invariant gives back every scoped buffer at some contents and the generator register. -/
theorem hout1 (c : Dev nD) : (dat1 V c).Φ (Fin.last cfg1.N) ⊢ Pipeline.ΦA (Val := Elt F) (U := UR sig nD τ) spec1 c := by
  rw [show (dat1 V c).Φ (Fin.last cfg1.N) = PhiS1 V c cfg1.N (Nat.le_refl _) from rfl,
    PhiS1_pos V c _ _ (by rw [show cfg1.N = 128 from N_1]; omega)]
  iintro ⟨Hr, HS, Hg⟩
  iapply (PhiA1_join c)
  isplitl [Hr]; · iexact Hr
  isplitl [HS]; · iexists _; iexact HS
  iexact Hg

end Cert.Kernel.Hand

end
-- ==== Proof.K.Run.lean ====
/-
  The kernel's program runs to the end from any launch memory: each region is entered with every unscoped buffer at
  the contents the fold names and left with them at the next ones, the generator register and an empty debt riding
  along; in the final state every unscoped buffer holds the fold's last contents. The frame claim reads the four
  arguments off that; the value claim reads the result.
-/
import proofs.«103724_j47090021433765_1_alg».proof.Proof.K.RunDefs
import proofs.«103724_j47090021433765_1_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Kernel region 0 over the thread state: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `W2`, left with them at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1 (V2 m) c)
    unfold Pipeline.ΦA
    isplitl [Hr]; · iexact Hr
    iexact Hp
  hout c := by
    rw [Pipeline.ownSems0_none, show (pdats m 1 c).Φ (Fin.last _) = (dat1 (V2 m) c).Φ (Fin.last cfg1.N) from rfl]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `W3`, left with them at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, whose exit is the chain's end. -/
abbrev hsegLast : Pipeline.HostSeg (Name := ℕ) (U := UR sig nD τ) (pcfgs (F := F)) defs₀ 𝒱₀ L lv :=
  hseg hostOps3 hostOps3_sub hostOps3_fresh' (W4 m)

/-- @main's five segments in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hsegLast m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state every unscoped buffer holds what the fold above says. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.KI.Reg0.lean ====
/-
  The first kernel region: the largest logit of all the keys' rows, 8192 rows at a grid point, 32 points.
  At every point the body takes the block's own maximum (a matrix product of the scaled rows with the transposed
  projection, then the maximum over the 256 columns and over the 8192 rows). At the first point it stores that into
  its one-element output buffer; at every later point it reads the buffer back and stores the larger of the two. The
  buffer is written back to its array after the last point only, so between points it holds the running maximum
  (`gacc0`), which is what the proof data records and what the body is shown to leave.
-/
import proofs.«103724_j47090021433765_1_alg».proof.Proof.Gen.KernelIdeal.Launch
import proofs.«103724_j47090021433765_1_alg».proof.Proof.Gen.KernelIdeal.Skeleton
import proofs.«103724_j47090021433765_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the first kernel region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the one-element output buffer holds after point `n`: at the first point the block's own maximum, afterwards
    the larger of what the point before left and this block's maximum. -/
def gacc0 (c : Dev nD) : (n : ℕ) → n < cfg0.N → Vec F S1x1 .f32
  | 0, hn => k0_pay1 (iblk0 V c 0 ⟨0, hn⟩) (iblk0 V c 1 ⟨0, hn⟩)
  | n + 1, hn => k0_pay2 (iblk0 V c 0 ⟨n + 1, hn⟩) (iblk0 V c 1 ⟨n + 1, hn⟩) (gacc0 c n (Nat.lt_of_succ_lt hn))

theorem gacc0_zero (c : Dev nD) (hn : 0 < cfg0.N) :
    gacc0 V c 0 hn = k0_pay1 (iblk0 V c 0 ⟨0, hn⟩) (iblk0 V c 1 ⟨0, hn⟩) := rfl
theorem gacc0_succ (c : Dev nD) (n : ℕ) (hn : n + 1 < cfg0.N) :
    gacc0 V c (n + 1) hn = k0_pay2 (iblk0 V c 0 ⟨n + 1, hn⟩) (iblk0 V c 1 ⟨n + 1, hn⟩) (gacc0 V c n (Nat.lt_of_succ_lt hn)) := rfl

/-- The proof data of the first region: the inputs' buffers keep their blocks; the output's buffer is the running
    maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => gacc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = gacc0 V c t.val t.isLt := by dsimp only [dat0]

/-! ## The body's two guards over the grid -/

/-- The first conditional's guard holds at the first point only; -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- the second's at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two guards holds at every coordinate, so the body stores into the output's buffer everywhere. -/
theorem live0_2 : ∀ i : grid0.Coords, cfg0.idle 2 i = false := by decide +kernel
/-- The output's block is written back at the last point only. -/
theorem noflush0_2 : ∀ t : Fin cfg0.N, t.val ≠ 31 → (cfg0.win 2).flush t = false :=
  (by decide +kernel : ∀ t : Fin grid0.N, t.val ≠ 31 → win0_2.flush t = false)

/-! ## What the output's buffer holds after a point, case by case -/

/-- After the first point: the first block's maximum. -/
theorem gacc0_first (c : Dev nD) (t : Fin cfg0.N) (hz : t.val = 0) :
    gacc0 V c t.val t.isLt = k0_pay1 (iblk0 V c 0 t) (iblk0 V c 1 t) := by
  obtain ⟨n, hn⟩ := t
  cases n with
  | zero => rfl
  | succ n => exact absurd hz (Nat.succ_ne_zero _)

/-- After a later point: the larger of what the point before left and this block's maximum. -/
theorem gacc0_later (c : Dev nD) (t : Fin cfg0.N) (hz : t.val ≠ 0) :
    gacc0 V c t.val t.isLt
      = k0_pay2 (iblk0 V c 0 t) (iblk0 V c 1 t) (gacc0 V c (t.val - 1) (Nat.lt_of_le_of_lt (Nat.sub_le _ _) t.isLt)) := by
  obtain ⟨n, hn⟩ := t
  cases n with
  | zero => exact absurd rfl hz
  | succ n => rfl

/-! ## What the body finds in each window's buffer -/

/-- The keys' buffer holds the point's block, fetched at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The projection's buffer holds its one block at every point: fetched once, the block index never moves. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Before the first point the output's buffer holds anything. -/
theorem before0_2_first (c : Dev nD) (t : Fin cfg0.N) (hz : t.val = 0) (d) : (dat0 V c).before 2 t d = d :=
  (dat0 V c).before_out_reset 2 rfl t (.inl hz) d

/-- Before a later point it holds what the point before left: the block is written back after the last point only,
    the body stores into the buffer at every point, and the window is not cut. -/
theorem before0_2_later (c : Dev nD) (t : Fin cfg0.N) (hz : t.val ≠ 0) (d) :
    (dat0 V c).before 2 t d = gacc0 V c (t.val - 1) (Nat.lt_of_le_of_lt (Nat.sub_le _ _) t.isLt) := by
  have hN : t.val < 32 := lt_of_lt_of_eq t.isLt (show cfg0.N = 32 from N_0)
  rw [Dat.before_out_kept _ 2 rfl t hz (noflush0_2 _ (by show t.val - 1 ≠ 31; omega)) live0_2 (fun _ _ => rfl)]
  exact after0_2 V c _

/-! ## The body's two runs -/

/-- The whole-shape rectangle's offsets are zero on both axes. -/
theorem off2_zero : (![0, 0] : Fin 2 → Nat) = fun _ => 0 := by
  funext a; fin_cases a <;> rfl

/-- One store through the whole one-element buffer covers it. -/
theorem cover0_out (w : Vec F S1x1 .f32) (y : S1x1.Idx) :
    ∃ pc ∈ ([⟨Rect.unit (s := S1x1) ![0, 0] S1x1.size inb_S1x1_S1x1_0_0, w⟩] : List (View.Piece (Elt F) S1x1 .f32)), y ∈ pc.1.set :=
  ⟨_, List.mem_singleton_self _, View.mem_set_unit_zero off2_zero inb_S1x1_S1x1_0_0 y⟩

set_option maxHeartbeats 1000000 in
/-- At the first point: both inputs are loaded whole, the first guard holds and the block's maximum is stored through
    the whole output buffer, whatever it held; the second guard fails. -/
theorem run_first (c : Dev nD) (E : Set ℕ) (i : grid0.Coords)
    (arg1 : Memref sig .tc .vmem S8192x64 .f32) (harg1 : arg1.IsWhole) (arg2 : Memref sig .tc .vmem S64x256 .f32) (harg2 : arg2.IsWhole)
    (arg3 : Memref sig .tc .vmem S1x1 .f32) (harg3 : arg3.IsWhole)
    (hc1 : k0_cond1 i = 1#1) (hc2 : ¬ k0_cond2 i = 1#1)
    (x0 : Vec F S8192x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__max_kernel i arg1 harg1 arg2 harg2 arg3 harg3) K := by
  simp only [cc0__max_kernel_eq_skeleton]; unfold cc0__max_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_out _), View.canon_unit_zero off2_zero]
  simp only [View.readAt_eq_ld, View.ld_unit_zero (S := S8192x64) off2_zero, View.ld_unit_zero (S := S64x256) off2_zero]

set_option maxHeartbeats 1000000 in
/-- At a later point: both inputs are loaded whole, the first guard fails, the second holds: the output buffer is
    loaded whole and the larger of it and the block's maximum stored back through all of it. -/
theorem run_later (c : Dev nD) (E : Set ℕ) (i : grid0.Coords)
    (arg1 : Memref sig .tc .vmem S8192x64 .f32) (harg1 : arg1.IsWhole) (arg2 : Memref sig .tc .vmem S64x256 .f32) (harg2 : arg2.IsWhole)
    (arg3 : Memref sig .tc .vmem S1x1 .f32) (harg3 : arg3.IsWhole)
    (hc1 : ¬ k0_cond1 i = 1#1) (hc2 : k0_cond2 i = 1#1)
    (x0 : Vec F S8192x64 .f32) (x1 : Vec F S64x256 .f32) (a : Vec F S1x1 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1
            ∗ owns (c : Thread nD τ) arg3 fullShare (k0_pay2 x0 x1 a)) -∗ K ⟨⟩))
      ⊢ wp frame (wpE (defs₀ (F := F)) Variants.none c none) E (cc0__max_kernel i arg1 harg1 arg2 harg2 arg3 harg3) K := by
  simp only [cc0__max_kernel_eq_skeleton]; unfold cc0__max_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_out _), View.canon_unit_zero off2_zero]
  simp only [View.readAt_eq_ld, View.ld_unit_zero (S := S8192x64) off2_zero, View.ld_unit_zero (S := S64x256) off2_zero,
    View.ld_unit_zero (S := S1x1) off2_zero]

/-! ## The body obligation -/

/-- What the body is called with at point `t`: the invariant, what the core owes, and each window's current buffer
    at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1000000 in
/-- The body at any point. The inputs' buffers hold their blocks. At the first point the output's buffer holds
    anything and the first run leaves the block's maximum in it; at a later point it holds what the point before
    left and the second run leaves the larger of that and the block's maximum. The invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from by
      unfold Dat.leavesExact; rw [live0_2],
    after0_0, after0_1, after0_2]
  by_cases hz : t.val = 0
  · rw [gacc0_first V c t hz]
    simp only [before0_2_first V c t hz]
    iintro ⟨HΦ, Ho, ⟨%d0, H0⟩, ⟨%d1, H1⟩, ⟨%d2, H2⟩⟩
    iapply (run_first c Set.univ (grid0.coords t) _ _ _ _ _ _ ((hcond0_1 t).mpr hz) (fun h => (hcond0_2 t).mp h hz)
      (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [gacc0_later V c t hz]
    simp only [before0_2_later V c t hz]
    iintro ⟨HΦ, Ho, ⟨%d0, H0⟩, ⟨%d1, H1⟩, ⟨%d2, H2⟩⟩
    iapply (run_later c Set.univ (grid0.coords t) _ _ _ _ _ _ (fun h => hz ((hcond0_1 t).mp h)) ((hcond0_2 t).mpr hz)
      (iblk0 V c 0 t) (iblk0 V c 1 t) (gacc0 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Defs.lean ====
/-
  The second kernel region, its data: each head's context, accumulated over the head's two tiles of 2048 rows.
  A grid point is (head, tile). The body zeroes a scratch accumulator at a head's first tile, adds the tile's
  contribution (the key features, transposed, times the value rows) to it at both tiles, and at the second tile copies
  the accumulator into the output buffer, which is then written back. So the accumulator after point `n` is `sacc1 n`:
  zero plus this tile's contribution at an even point, the point before plus this tile's at an odd one. The region's
  invariant carries the accumulator from point to point; the output window is consulted at odd points only.
-/
import proofs.«103724_j47090021433765_1_alg».proof.Proof.Gen.KernelIdeal.Launch
import proofs.«103724_j47090021433765_1_alg».proof.Proof.Gen.KernelIdeal.Skeleton
import proofs.«103724_j47090021433765_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the second kernel region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One tile's contribution to its head's context: the features of the tile's 2048 key rows against its value rows. -/
def contrib1 (c : Dev nD) (t : Fin cfg1.N) : FVec F S1x256x64 .f32 :=
  k1_pay3 (iblk1 V c 0 t) (iblk1 V c 1 t) (iblk1 V c 2 t) (iblk1 V c 3 t)

/-- What the scratch accumulator holds after point `n`: at a head's first tile (even `n`) zero plus the tile's
    contribution, at its second tile what the point before left plus the tile's contribution. -/
def sacc1 (c : Dev nD) : (n : ℕ) → n < cfg1.N → Vec F S1x256x64 .f32
  | 0, hn => k1_pay1 (k1_pay2 (F := F)) (contrib1 V c ⟨0, hn⟩)
  | n + 1, hn =>
    if (n + 1) % 2 = 0 then k1_pay1 (k1_pay2 (F := F)) (contrib1 V c ⟨n + 1, hn⟩)
    else k1_pay1 (sacc1 c n (Nat.lt_of_succ_lt hn)) (contrib1 V c ⟨n + 1, hn⟩)

theorem sacc1_even (c : Dev nD) (t : Fin cfg1.N) (h : t.val % 2 = 0) :
    sacc1 V c t.val t.isLt = k1_pay1 (k1_pay2 (F := F)) (contrib1 V c t) := by
  obtain ⟨n, hn⟩ := t
  cases n with
  | zero => rfl
  | succ n => exact if_pos h

theorem sacc1_odd (c : Dev nD) (t : Fin cfg1.N) (h : t.val % 2 = 1) :
    sacc1 V c t.val t.isLt
      = k1_pay1 (sacc1 V c (t.val - 1) (Nat.lt_of_le_of_lt (Nat.sub_le _ _) t.isLt)) (contrib1 V c t) := by
  obtain ⟨n, hn⟩ := t
  cases n with
  | zero => exact absurd h (by simp)
  | succ n => exact if_neg (by dsimp only at h; omega)

/-- The scratch accumulator's memref. -/
abbrev scM1 : Memref sig .tc .vmem S1x256x64 .f32 := Memref.whole cc1_scratch0

/-- The core's scoped buffers that are neither a staging buffer of this region nor its scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's invariant before position `n`: before the first point every scoped buffer that is no staging buffer
    at some contents and the generator register at some state; afterwards the same with the scratch accumulator at
    what the point before left in it. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (sacc1 V c n hn) ∗ (∃ r, prngReg c r))

/-- The proof data of the second region: the inputs' buffers keep their blocks; the output's buffer holds the
    accumulator (consulted only at a head's second tile, where the body copies the accumulator into it and the block is
    written back); the invariant carries the accumulator from point to point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => sacc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = sacc1 V c t.val t.isLt := by dsimp only [dat1]

end Cert.KernelIdeal.Hand

end
-- ==== Proof.KI.Reg2.lean ====
/-
  The third kernel region: a tile's 2048 output rows from its query rows, the transposed projection and the head's
  context. One value is stored, whole, into the output buffer at every point, and every point writes its block back:
  nothing is carried between points.
-/
import proofs.«103724_j47090021433765_1_alg».proof.Proof.Gen.KernelIdeal.Launch
import proofs.«103724_j47090021433765_1_alg».proof.Proof.Gen.KernelIdeal.Skeleton
import proofs.«103724_j47090021433765_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the third kernel region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the third region: the inputs' buffers keep their blocks, the output's buffer holds the body's one
    stored value, computed from the three input blocks of the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]

/-! ## The inputs' staging buffers hold their blocks -/

/-- The queries' staging buffer holds the point's block: an input, never idle, uncut, left in place by the body. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The projection's staging buffer holds its one block at every point, though fetched at the first only. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The context's staging buffer holds the head's block at both points of the head, though fetched at the even one only. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body's triple -/

/-- The zero offsets of a whole-buffer access, as the constant function. -/
private theorem zeros2 : (![0, 0] : Fin 2 → ℕ) = fun _ => 0 := funext fun a => by fin_cases a <;> rfl
private theorem zeros3 : (![0, 0, 0] : Fin 3 → ℕ) = fun _ => 0 := funext fun a => by fin_cases a <;> rfl

set_option maxHeartbeats 1000000 in
/-- The body on whole staging memrefs, the three inputs' at read contents `x0`, `x1`, `x2` and the output's at anything,
    runs to the continuation holding the inputs' as they were and the output's at the one stored value. -/
theorem sound_kernel2 (c : Dev nD) (E : Set ℕ) (i : grid2.Coords)
    (arg2 : Memref sig .tc .vmem S1x2048x64 .f32) (harg2 : arg2.IsWhole)
    (arg3 : Memref sig .tc .vmem S64x256 .f32) (harg3 : arg3.IsWhole)
    (arg4 : Memref sig .tc .vmem S1x256x64 .f32) (harg4 : arg4.IsWhole)
    (arg5 : Memref sig .tc .vmem S1x2048x64 .f32) (harg5 : arg5.IsWhole)
    (x0 : Vec F S1x2048x64 .f32) (x1 : Vec F S64x256 .f32) (x2 : Vec F S1x256x64 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k2_pay1 x0 x1 x2)) -∗ K ⟨⟩))
      ⊢ wp frame (wpE (defs₀ (F := F)) Variants.none c none) E (cc2__out_kernel i arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero (S := S1x2048x64) zeros3 inb_S1x2048x64_S1x2048x64_0_0_0 y⟩),
    View.canon_unit_zero (S := S1x2048x64) zeros3]
  simp only [View.readAt_eq_ld, View.ld_unit_zero (S := S1x2048x64) zeros3, View.ld_unit_zero (S := S64x256) zeros2,
    View.ld_unit_zero (S := S1x256x64) zeros3]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of the third region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RunDefs.lean ====
/-
  What the unscoped buffers hold at each boundary of the kernel's program, as a fold from the launch memory: five host
  operations (the heads merged, the projection transposed, the keys flattened), the three kernel regions, one host
  operation (the heads split). A region changes only its windows' arrays; none of the four arguments is a window's
  array or a host operation's result, so each reaches the end as launched.
-/
import proofs.«103724_j47090021433765_1_alg».proof.Proof.KI.Reg0
import proofs.«103724_j47090021433765_1_alg».proof.Proof.KI.Reg1Defs
import proofs.«103724_j47090021433765_1_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The unscoped buffers' contents at each boundary of @main: a fold from the launch memory

Five host operations, the three kernel regions, one host operation. A host stretch leaves what its operations
compute; a region leaves its windows' arrays at what its write-backs make of them and every other buffer as it was. -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last host stretch: what @main returns with. -/
abbrev W5 : Dev nD → Valuation τ sig (Elt F) := fun c => StableHlo.after hostOps3 (W4 m c)

/-! ## The arguments end as launched -/

/-- Argument 0 reaches the end as launched: no host operation writes it and no region has it among its windows' arrays. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- Argument 1 reaches the end as launched: no host operation writes it and no region has it among its windows' arrays. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- Argument 2 reaches the end as launched: no host operation writes it and no region has it among its windows' arrays. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- Argument 3 reaches the end as launched: no host operation writes it and no region has it among its windows' arrays. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.reshape_writes, Finset.mem_singleton]
          exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

end Cert.KernelIdeal.Hand

end
-- ==== Proof.KI.Reg1.lean ====
/-
  The second kernel region, its body: at a head's first tile the accumulator is overwritten before it is read, so
  what the point before left does not matter; at the second tile it holds what the first left. In both cases the body
  leaves the accumulator at `sacc1` of the point, the input buffers untouched, and the output buffer either as found
  (first tile: the window is idle and not written back) or at the accumulator's contents (second tile).
-/
import proofs.«103724_j47090021433765_1_alg».proof.Proof.Gen.KernelIdeal.Launch
import proofs.«103724_j47090021433765_1_alg».proof.Proof.Gen.KernelIdeal.Skeleton
import proofs.«103724_j47090021433765_1_alg».proof.Proof.Gen.KernelIdeal.Points
import proofs.«103724_j47090021433765_1_alg».proof.Proof.KI.Reg1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the second kernel region is entered
variable (V : (c : Dev nD) → (b : Ref sig .tc) → Buf (Elt F) ((c : Thread nD τ).loc b))

/-! ## The body's branch conditions, in closed form over the grid -/

/-- The condition of the first `scf.if` (the tile is its head's first), from the grid coordinates. -/
abbrev cond1_0 (i : grid1.Coords) : Prop :=
  (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the second `scf.if` (the tile is its head's second). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The output window is idle at the even points, -/
theorem idleAt1_4 : ∀ t : Fin cfg1.N, t.val % 2 = 0 → cfg1.idle 4 (grid1.coords t) = true :=
  (by decide +kernel : ∀ t : Fin grid1.N, t.val % 2 = 0 → idle1 4 (grid1.coords t) = true)
/-- live at the odd ones, -/
theorem liveAt1_4 : ∀ t : Fin cfg1.N, t.val % 2 = 1 → cfg1.idle 4 (grid1.coords t) = false :=
  (by decide +kernel : ∀ t : Fin grid1.N, t.val % 2 = 1 → idle1 4 (grid1.coords t) = false)
/-- and not written back at the even ones. -/
theorem noFlush1_4 (t : Fin cfg1.N) (h : t.val % 2 = 0) : (cfg1.win 4).flush t = false := by
  cases hf : (cfg1.win 4).flush t with
  | false => rfl
  | true => exact absurd ((flush1_4 t).mp hf) (by omega)

/-! ## The inputs' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Whole-buffer stores and loads -/

theorem hz3 : (![0, 0, 0] : Fin 3 → Nat) = fun _ => 0 := funext fun a => by fin_cases a <;> rfl
theorem hz2 : (![0, 0] : Fin 2 → Nat) = fun _ => 0 := funext fun a => by fin_cases a <;> rfl

/-- A buffer whose last store wrote it whole reads that store's payload, whatever it held and whatever was stored before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's runs -/

set_option maxHeartbeats 1000000 in
/-- At a head's first tile: the accumulator, at anything, is zeroed and then holds zero plus the tile's contribution; the
    output buffer is not touched. -/
theorem kernelRun1_first (c : Dev nD) (E : Set ℕ) (i : grid1.Coords)
    (arg2 : Memref sig .tc .vmem S1x2048x64 .f32) (harg2 : arg2.IsWhole) (arg3 : Memref sig .tc .vmem S1x2048x64 .f32) (harg3 : arg3.IsWhole)
    (arg4 : Memref sig .tc .vmem S64x256 .f32) (harg4 : arg4.IsWhole) (arg5 : Memref sig .tc .vmem S1x1 .f32) (harg5 : arg5.IsWhole)
    (arg6 : Memref sig .tc .vmem S1x256x64 .f32) (harg6 : arg6.IsWhole) (arg7 : Memref sig .tc .vmem S1x256x64 .f32) (harg7 : arg7.IsWhole)
    (hc0 : cond1_0 i) (hc1 : ¬cond1_1 i)
    (x0 x1 : Vec F S1x2048x64 .f32) (x2 : Vec F S64x256 .f32) (x3 : Vec F S1x1 .f32) (xo : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k1_pay1 (k1_pay2 (F := F)) (k1_pay3 x0 x1 x2 x3))) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%fo, %hfo, H4⟩, ⟨%ds, %fs, -, HS⟩, Hk⟩
  subst hf0 hf1 hf2 hf3 hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists fo; isplitr; · ipureintro; rfl
    iexact H4
  iexists _; isplitr
  swap; · iexact HS
  ipureintro
  rw [read_writes_whole _ _ hz3]
  sl_unfold_words
  simp only [View.readAt_eq_ld, View.readCov_unit_zero (S := S1x256x64) _ hz3, View.ld_unit_zero (S := S1x2048x64) hz3,
    View.ld_unit_zero (S := S64x256) hz2, View.ld_unit_zero (S := S1x1) hz2]

set_option maxHeartbeats 1000000 in
/-- At a head's second tile: the accumulator, at what the first tile left, gains the tile's contribution, and the output
    buffer, at anything, is overwritten whole with the accumulator's contents. -/
theorem kernelRun1_second (c : Dev nD) (E : Set ℕ) (i : grid1.Coords)
    (arg2 : Memref sig .tc .vmem S1x2048x64 .f32) (harg2 : arg2.IsWhole) (arg3 : Memref sig .tc .vmem S1x2048x64 .f32) (harg3 : arg3.IsWhole)
    (arg4 : Memref sig .tc .vmem S64x256 .f32) (harg4 : arg4.IsWhole) (arg5 : Memref sig .tc .vmem S1x1 .f32) (harg5 : arg5.IsWhole)
    (arg6 : Memref sig .tc .vmem S1x256x64 .f32) (harg6 : arg6.IsWhole) (arg7 : Memref sig .tc .vmem S1x256x64 .f32) (harg7 : arg7.IsWhole)
    (hc0 : ¬cond1_0 i) (hc1 : cond1_1 i)
    (x0 x1 : Vec F S1x2048x64 .f32) (x2 : Vec F S64x256 .f32) (x3 : Vec F S1x1 .f32) (xs : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay1 xs (k1_pay3 x0 x1 x2 x3))
            ∗ owns (c : Thread nD τ) arg7 fullShare (k1_pay1 xs (k1_pay3 x0 x1 x2 x3))) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%d6, %fo, -, H4⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_writes_whole _ _ hz3]
    simp only [View.readAt_eq_ld, View.readCov_unit_zero (S := S1x256x64) _ hz3, View.ld_unit_zero (S := S1x2048x64) hz3,
      View.ld_unit_zero (S := S1x256x64) hz3, View.ld_unit_zero (S := S64x256) hz2, View.ld_unit_zero (S := S1x1) hz2]
  iexists _; isplitr
  swap; · iexact HS
  ipureintro
  sl_unfold_words
  rw [read_writes_whole _ _ hz3]
  simp only [View.readAt_eq_ld, View.readCov_unit_zero (S := S1x256x64) _ hz3, View.ld_unit_zero (S := S1x2048x64) hz3,
      View.ld_unit_zero (S := S1x256x64) hz3, View.ld_unit_zero (S := S64x256) hz2, View.ld_unit_zero (S := S1x1) hz2]

/-! ## The invariant, position by position -/

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(rest1 (F := F) c ∗ owns (c : Thread nD τ) scM1 fullShare (sacc1 V c n hn) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c ∗ owns (c : Thread nD τ) scM1 fullShare (sacc1 V c (n - 1) (by omega)) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The launch's invariant hands out the accumulator at some contents beside the other scoped buffers, -/
theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨A1, A2, A3, A4, S, B1, B2, B3, B4, B5, B6, B7⟩, Hg⟩
  isplitl [A1 A2 A3 A4 B1 B2 B3 B4 B5 B6 B7]
  · isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    isplitl [B5]; · iexact B5
    isplitl [B6]; · iexact B6
    iexact B7
  isplitl [S]; · iexact S
  iexact Hg

/-- and takes it back at any. -/
theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨A1, A2, A3, A4, B1, B2, B3, B4, B5, B6, B7⟩, S, Hg⟩
  isplitr [Hg]
  · isplitl [A1]; · iexact A1
    isplitl [A2]; · iexact A2
    isplitl [A3]; · iexact A3
    isplitl [A4]; · iexact A4
    isplitl [S]; · iexact S
    isplitl [B1]; · iexact B1
    isplitl [B2]; · iexact B2
    isplitl [B3]; · iexact B3
    isplitl [B4]; · iexact B4
    isplitl [B5]; · iexact B5
    isplitl [B6]; · iexact B6
    iexact B7
  iexact Hg

/-! ## The body obligation, at a generic point -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks. At an even point (a head's first tile) the invariant
    hands the accumulator at anything — out of the launch's invariant at the very first point, at what the point before
    left afterwards —, the run zeroes it and leaves zero plus the tile's contribution, and the idle output buffer goes back
    as found. At an odd point the invariant hands the accumulator at what the first tile left, the run adds the tile's
    contribution and copies the sum into the output buffer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [PhiS1_castSucc V c t]
  by_cases h : t.val % 2 = 0
  · have hc0 : cond1_0 (grid1.coords t) := (hcond1_0 t).mpr h
    have hc1 : ¬cond1_1 (grid1.coords t) := fun hh => by have := (hcond1_1 t).mp hh; omega
    rw [Dat.leavesExact_idle (dat1 V c) 4 t (idleAt1_4 t h) (noFlush1_4 t h)]
    rw [sacc1_even V c t h]; unfold contrib1
    by_cases hz : t.val = 0
    · rw [PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split c) $$ HΦ
      icases HΦ' with ⟨Hr, HS, Hg⟩
      iapply (kernelRun1_first c Set.univ (grid1.coords t) _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS1_pos V c _ _ hz]
      iintro ⟨⟨Hr, HS, Hg⟩, Ho, ⟨%d0, H0⟩, ⟨%d1, H1⟩, ⟨%d2, H2⟩, ⟨%d3, H3⟩, ⟨%d4, H4⟩⟩
      iapply (kernelRun1_first c Set.univ (grid1.coords t) _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    have hc0 : ¬cond1_0 (grid1.coords t) := fun hh => h ((hcond1_0 t).mp hh)
    have hc1 : cond1_1 (grid1.coords t) := (hcond1_1 t).mpr h1
    rw [show (dat1 V c).leavesExact 4 t = owns (c : Thread nD τ) (st1_4 t) fullShare ((dat1 V c).after 4 t) from by
      unfold Dat.leavesExact; rw [liveAt1_4 t h1], after1_4]
    rw [sacc1_odd V c t h1]; unfold contrib1
    rw [PhiS1_pos V c _ _ hz]
    iintro ⟨⟨Hr, HS, Hg⟩, Ho, ⟨%d0, H0⟩, ⟨%d1, H1⟩, ⟨%d2, H2⟩, ⟨%d3, H3⟩, ⟨%d4, H4⟩⟩
    iapply (kernelRun1_second c Set.univ (grid1.coords t) _ _ _ _ _ _ _ _ _ _ _ _ hc0 hc1 (iblk1 V c 0 t) (iblk1 V c 1 t) (iblk1 V c 2 t) (iblk1 V c 3 t)
      (sacc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    iexact H4

/-- The library's body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA (Val := Elt F) (U := UR sig nD τ) spec1 c ⊢ (dat1 V c).Φ 0 := by
  rw [show (dat1 V c).Φ 0 = PhiS1 V c 0 (Nat.zero_le _) from rfl, PhiS1_zero V c 0 _ rfl]

/-- After the last point the invariant gives back every scoped buffer at some contents and the generator register. -/
theorem hout1 (c : Dev nD) : (dat1 V c).Φ (Fin.last cfg1.N) ⊢ Pipeline.ΦA (Val := Elt F) (U := UR sig nD τ) spec1 c := by
  rw [show (dat1 V c).Φ (Fin.last cfg1.N) = PhiS1 V c cfg1.N (Nat.le_refl _) from rfl,
    PhiS1_pos V c _ _ (by rw [show cfg1.N = 128 from N_1]; omega)]
  iintro ⟨Hr, HS, Hg⟩
  iapply (PhiA1_join c)
  isplitl [Hr]; · iexact Hr
  isplitl [HS]; · iexists _; iexact HS
  iexact Hg

end Cert.KernelIdeal.Hand

end
-- ==== Proof.KI.Run.lean ====
/-
  The kernel's program runs to the end from any launch memory: each region is entered with every unscoped buffer at
  the contents the fold names and left with them at the next ones, the generator register and an empty debt riding
  along; in the final state every unscoped buffer holds the fold's last contents. The frame claim reads the four
  arguments off that; the value claim reads the result.
-/
import proofs.«103724_j47090021433765_1_alg».proof.Proof.KI.RunDefs
import proofs.«103724_j47090021433765_1_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Kernel region 0 over the thread state: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `W2`, left with them at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1 (V2 m) c)
    unfold Pipeline.ΦA
    isplitl [Hr]; · iexact Hr
    iexact Hp
  hout c := by
    rw [Pipeline.ownSems0_none, show (pdats m 1 c).Φ (Fin.last _) = (dat1 (V2 m) c).Φ (Fin.last cfg1.N) from rfl]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `W3`, left with them at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, whose exit is the chain's end. -/
abbrev hsegLast : Pipeline.HostSeg (Name := ℕ) (U := UR sig nD τ) (pcfgs (F := F)) defs₀ 𝒱₀ L lv :=
  hseg hostOps3 hostOps3_sub hostOps3_fresh' (W4 m)

/-- @main's five segments in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hsegLast m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state every unscoped buffer holds what the fold above says. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.Spec.lean ====
/-
  The mathematics both programs compute, over the extended reals, index by index.

  Random-feature attention. With the scale `dn`, the weight `c16` and the offset `eps` (three float words kept as
  their exact binary values, never evaluated), a row `x` of 64 entries has against the 256 projection rows the logits
  `∑ d, (dn · x d) · p m d`, the half squared norm `(∑ d, x d · x d) · c16`, and the feature
  `c16 · (exp (logit − norm − stab) + eps)`. For the queries `stab` is the row's largest logit, for the keys the
  largest logit of ALL key rows. The context is `∑ n, kfeat n m · v n e` per head, the result
  `∑ m, qfeat n m · context m e`.

  Two arrangements of the same data are named: the four-axis one of the arguments, [4, 16, 4096, 64], and the one a
  head at a time, [64, 4096, 64], with the projection transposed to [64, 256] and the keys also flat as [262144, 64].
-/
import Idealize.ShloMosaic.PureOps.Ideal
import Idealize.ShloMosaic.Lib.ValueIdx

noncomputable section

namespace Cert.Spec

open Idealize.ShloMosaic Idealize.ShloMosaic.ValueIdx

/-! ## The shapes and the three words -/

abbrev T4 : Shape := ⟨4, ![4, 16, 4096, 64]⟩
abbrev TP : Shape := ⟨2, ![256, 64]⟩
abbrev T3 : Shape := ⟨3, ![64, 4096, 64]⟩
abbrev TPt : Shape := ⟨2, ![64, 256]⟩
abbrev TC : Shape := ⟨3, ![64, 256, 64]⟩
abbrev TK : Shape := ⟨2, ![262144, 64]⟩
abbrev T11 : Shape := ⟨2, ![1, 1]⟩

/-- The scale of the logits, `f32 0.353553385`. -/
def dn : EReal := Ideal.ofBits .f32 0x3EB504F3#32
/-- The weight `f32 0.0625`, of the squared norm and of the feature. -/
def c16 : EReal := Ideal.ofBits .f32 0x3D800000#32
/-- The offset `f32 9.99999974e-5`. -/
def eps : EReal := Ideal.ofBits .f32 0x38D1B717#32

/-! ## One row -/

/-- The logit of a row `x` against projection row `m`, the projection read through `p m d`. -/
def logit (x : Fin 64 → EReal) (p : Fin 256 → Fin 64 → EReal) (m : Fin 256) : EReal :=
  ∑ d : Fin 64, (dn * x d) * p m d

/-- Half the row's squared norm, scaled. -/
def hnorm (x : Fin 64 → EReal) : EReal := (∑ d : Fin 64, x d * x d) * c16

/-- The feature of a row at projection row `m` under the stabiliser `stab`. -/
def feat (x : Fin 64 → EReal) (p : Fin 256 → Fin 64 → EReal) (stab : EReal) (m : Fin 256) : EReal :=
  c16 * (Ideal.exp (logit x p m - hnorm x - stab) + eps)

/-- The largest logit of a row. -/
def rowMax (x : Fin 64 → EReal) (p : Fin 256 → Fin 64 → EReal) : EReal := ⨆ m : Fin 256, logit x p m

/-! ## A head at a time: the arrangement [64, 4096, 64] with the projection transposed -/

/-- Row `n` of head `g`. -/
def row3 (x : T3.Idx → EReal) (g : Fin 64) (n : Fin 4096) : Fin 64 → EReal := fun d => x (ix3 g n d)
/-- The transposed projection read as `p m d`. -/
def projOfT (pt : TPt.Idx → EReal) : Fin 256 → Fin 64 → EReal := fun m d => pt (ix2 d m)
/-- Row `r` of the flat keys. -/
def rowK (kf : TK.Idx → EReal) (r : Fin 262144) : Fin 64 → EReal := fun d => kf (ix2 r d)

/-- The largest logit of all key rows, from the flat keys. -/
def gmaxK (kf : TK.Idx → EReal) (pt : TPt.Idx → EReal) : EReal :=
  ⨆ r : Fin 262144, ⨆ m : Fin 256, logit (rowK kf r) (projOfT pt) m

/-- The context of each head, from the keys, the values, the transposed projection and the keys' stabiliser. -/
def ctxK (k3 v3 : T3.Idx → EReal) (pt : TPt.Idx → EReal) (gm : EReal) : TC.Idx → EReal := fun j =>
  ∑ n : Fin 4096, feat (row3 k3 (j 0) n) (projOfT pt) gm (j 1) * v3 (ix3 (j 0) n (j 2))

/-- The result of each head, from the queries, the transposed projection and the context. -/
def outK (q3 : T3.Idx → EReal) (pt : TPt.Idx → EReal) (ctx : TC.Idx → EReal) : T3.Idx → EReal := fun j =>
  ∑ m : Fin 256, feat (row3 q3 (j 0) (j 1)) (projOfT pt) (rowMax (row3 q3 (j 0) (j 1)) (projOfT pt)) m * ctx (ix3 (j 0) m (j 2))

/-! ## The re-arrangements the kernel's program makes around its three stages -/

/-- Heads merged: [4, 16, 4096, 64] read as [64, 4096, 64], head `g = 16 b + h`. -/
def heads (x : T4.Idx → EReal) : T3.Idx → EReal := fun j =>
  x (ix4 ⟨(j 0).val / 16, by have := (j 0).isLt; simp only [Matrix.cons_val_zero] at this; omega⟩
         ⟨(j 0).val % 16, Nat.mod_lt _ (by norm_num)⟩ (j 1) (j 2))
/-- The projection transposed. -/
def transp (p : TP.Idx → EReal) : TPt.Idx → EReal := fun j => p (ix2 (j 1) (j 0))
/-- The heads' rows in one list: [64, 4096, 64] read as [262144, 64], row `r = 4096 g + n`. -/
def flatRows (x : T3.Idx → EReal) : TK.Idx → EReal := fun j =>
  x (ix3 ⟨(j 0).val / 4096, by have := (j 0).isLt; simp only [Matrix.cons_val_zero] at this; omega⟩
         ⟨(j 0).val % 4096, Nat.mod_lt _ (by norm_num)⟩ (j 1))
/-- Heads split again: [64, 4096, 64] read as [4, 16, 4096, 64]. -/
def unheads (y : T3.Idx → EReal) : T4.Idx → EReal := fun i =>
  y (ix3 ⟨(i 0).val * 16 + (i 1).val, by
        have h0 := (i 0).isLt; have h1 := (i 1).isLt
        simp only [Matrix.cons_val_zero] at h0
        simp only [Matrix.cons_val_one, Matrix.cons_val_zero] at h1; omega⟩ (i 2) (i 3))

/-- What the kernel's program computes, as one function of its four arguments. -/
def kernelOut (q k v : T4.Idx → EReal) (p : TP.Idx → EReal) : T4.Idx → EReal :=
  unheads (outK (heads q) (transp p)
    (ctxK (heads k) (heads v) (transp p) (gmaxK (flatRows (heads k)) (transp p))))

/-! ## The four-axis arrangement of the reference -/

/-- Row `n` of head `(b, h)`. -/
def row4 (x : T4.Idx → EReal) (b : Fin 4) (h : Fin 16) (n : Fin 4096) : Fin 64 → EReal := fun d => x (ix4 b h n d)
/-- The projection read as `p m d`. -/
def projOf (p : TP.Idx → EReal) : Fin 256 → Fin 64 → EReal := fun m d => p (ix2 m d)

/-- The largest logit of all key rows. -/
def gmaxR (k : T4.Idx → EReal) (p : TP.Idx → EReal) : EReal :=
  ⨆ b : Fin 4, ⨆ h : Fin 16, ⨆ n : Fin 4096, ⨆ m : Fin 256, logit (row4 k b h n) (projOf p) m

/-- The reference's result, as one function of its four arguments. -/
def refOut (q k v : T4.Idx → EReal) (p : TP.Idx → EReal) : T4.Idx → EReal := fun i =>
  ∑ m : Fin 256,
    feat (row4 q (i 0) (i 1) (i 2)) (projOf p) (rowMax (row4 q (i 0) (i 1) (i 2)) (projOf p)) m
      * ∑ n : Fin 4096, feat (row4 k (i 0) (i 1) n) (projOf p) (gmaxR k p) m * v (ix4 (i 0) (i 1) n (i 3))

end Cert.Spec

end
-- ==== Proof.KI.Val0.lean ====
/-
  The value of the first kernel region over the extended reals: after its last grid point the one-element result
  holds the largest logit of all 262144 flat key rows.
  A fold of `max` from the least element over a finite index is a supremum. The block's own maximum is the supremum over
  its 8192 rows and the 256 projection rows of the logit; the running maximum after point `n` is the supremum over the
  blocks up to `n`, by induction on the point; and the supremum over (block, row in the block) is the supremum over the
  flat row `8192 · block + row`. The one write-back, at the last point, puts the running maximum into the array.
-/
import proofs.«103724_j47090021433765_1_alg».proof.Proof.KI.Reg0
import proofs.«103724_j47090021433765_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the TensorCore's buffer contents when the first kernel region is entered, at the ideal values
variable (V : (c : Dev nD) → (b : Ref sig .tc) → Buf (Elt Ideal) ((c : Thread nD τ).loc b))

/-! ## Folds of `max` from `⊥` are suprema -/

/-- The fold of `max` from `⊥` over every coordinate of an axis is the supremum over that axis. -/
theorem fold_max_bot {n : ℕ} (f : Fin n → EReal) :
    (Finset.univ : Finset (Fin n)).fold max ⊥ f = ⨆ i, f i := by
  apply le_antisymm
  · exact (Finset.fold_max_le _).mpr ⟨bot_le, fun i _ => le_iSup f i⟩
  · exact iSup_le fun i => (Finset.le_fold_max _).mpr (Or.inr ⟨i, Finset.mem_univ i, le_rfl⟩)

/-- The word `0xFF800000` is the least extended real. -/
theorem negInf_eq_bot : Ideal.ofBits .f32 0xFF800000#32 = ⊥ := by simp [Ideal.ofBits, Ideal.ieee]

/-! ## The matrix product at an index -/

/-- The operands' indices of the product at result index `i` and contraction index `q`, axis by axis: the left operand
    is read at row `i 0`, column `q`; the right one at row `q`, column `i 1`. -/
theorem lhs_mm_0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide), dif_pos (show (0 : Fin S8192x64.rank) ∈ dot_S8192x64_S64x256_S8192x256_1_0_0_1_n_n.lhsNonContracting by decide)]
  rfl
theorem lhs_mm_1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q
theorem rhs_mm_0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q
theorem rhs_mm_1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide), dif_pos (show (1 : Fin S64x256.rank) ∈ dot_S8192x64_S64x256_S8192x256_1_0_0_1_n_n.rhsNonContracting by decide)]
  rfl

/-- The product of a block of rows with the projection, read at row `r` and column `m`: the sum over the 64 entries. -/
theorem mm_apply (a : FVec Ideal S8192x64 .bf16) (b : FVec Ideal S64x256 .bf16) (r : Fin 8192) (m : Fin 256) :
    matmul dot_S8192x64_S64x256_S8192x256_1_0_0_1_n_n none a b (constant (F := Ideal) S8192x256 .f32 0x00000000#32) (ix2 r m)
      = ∑ d : Fin 64, a (ix2 r d) * b (ix2 d m) := by
  simp only [matmul]
  rw [Ideal.matmul_constant_zero_apply, ← Equiv.sum_comp (ValueIdx.contrEquiv1 dot_S8192x64_S64x256_S8192x256_1_0_0_1_n_n 64 rfl rfl).symm]
  refine Finset.sum_congr rfl fun k _ => ?_
  have hk := ValueIdx.contrEquiv1_symm_val dot_S8192x64_S64x256_S8192x256_1_0_0_1_n_n 64 rfl rfl k
  have el : dot_S8192x64_S64x256_S8192x256_1_0_0_1_n_n.lhsIdx (ix2 r m) ((ValueIdx.contrEquiv1 dot_S8192x64_S64x256_S8192x256_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S8192x64_S64x256_S8192x256_1_0_0_1_n_n.rhsIdx (ix2 r m) ((ValueIdx.contrEquiv1 dot_S8192x64_S64x256_S8192x256_1_0_0_1_n_n 64 rfl rfl).symm k) = ix2 k m := funext fun a => Fin.ext (by
    match a with
    | ⟨0, _⟩ => exact (rhs_mm_0 _ _).trans hk
    | ⟨1, _⟩ => exact rhs_mm_1 _ _)
  rw [el, er]

/-! ## The two maxima of the payload, and the column cast -/

/-- The fold of `max` from the word `0xFF800000` over every coordinate of an axis is the supremum over that axis. -/
theorem fold_max_negInf {n : ℕ} (f : Fin n → EReal) :
    (Finset.univ : Finset (Fin n)).fold max (Ideal.ofBits .f32 0xFF800000#32) f = ⨆ i, f i := by
  rw [negInf_eq_bot]; exact fold_max_bot f

/-- A vector of `a` entries cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The maximum along a row of the products: the supremum over the 256 columns. -/
theorem rowMax_apply (v : FVec Ideal S8192x256 .f32) (r : Fin 8192) :
    multiReduction (F := Ideal) .maximumf [1] S8192 v 0xFF800000#32 reduces_S8192x256_S8192 (.inl rfl) rfl (ix1 r)
      = ⨆ m : Fin 256, v (ix2 r m) := by
  refine (Ideal.multiReduction_maximumf_single v _ reduces_S8192x256_S8192 (.inl rfl) rfl (ix1 r)).trans ?_
  refine (fold_max_negInf _).trans ?_
  refine iSup_congr fun m => ?_
  exact congrArg v (funext fun a => by match a with | ⟨0, _⟩ => rfl | ⟨1, _⟩ => rfl)

/-- The maximum down the column of row maxima: the supremum over the 8192 rows. -/
theorem colMax_apply (v : FVec Ideal S8192x1 .f32) :
    multiReduction (F := Ideal) .maximumf [0] S1 v 0xFF800000#32 reduces_S8192x1_S1 (.inl rfl) rfl (ix1 (0 : Fin 1))
      = ⨆ r : Fin 8192, v (ix2 r (0 : Fin 1)) := by
  refine (Ideal.multiReduction_maximumf_single v _ reduces_S8192x1_S1 (.inl rfl) rfl (ix1 (0 : Fin 1))).trans ?_
  refine (fold_max_negInf _).trans ?_
  refine iSup_congr fun r => ?_
  exact congrArg v (funext fun a => by match a with | ⟨0, _⟩ => rfl | ⟨1, _⟩ => rfl)

/-! ## The payload at its one index -/

/-- A block's own maximum: the supremum over its 8192 rows and the 256 projection rows of the logit. -/
theorem pay1_apply (x0 : Vec Ideal S8192x64 .f32) (x1 : Vec Ideal S64x256 .f32) :
    k0_pay1 (F := Ideal) x0 x1 (ix2 (0 : Fin 1) (0 : Fin 1))
      = ⨆ r : Fin 8192, ⨆ m : Fin 256, Cert.Spec.logit (fun d => x0 (ix2 r d)) (fun m d => x1 (ix2 d m)) m := by
  unfold k0_pay1
  dsimp only
  refine (shapeCast_a_1a_apply _ shapeCasts_S1_S1x1 0 0).trans ?_
  refine (colMax_apply _).trans ?_
  refine iSup_congr fun r => ?_
  refine (shapeCast_a_a1_apply _ shapeCasts_S8192_S8192x1 r 0).trans ?_
  refine (rowMax_apply _ r).trans ?_
  refine iSup_congr fun m => ?_
  refine (mm_apply _ _ r m).trans ?_
  unfold Cert.Spec.logit
  refine Finset.sum_congr rfl fun d _ => ?_
  show (Ideal.ofBits .f32 0x3EB504F3#32 * shapeCast S8192x64 x0 shapeCasts_S8192x64_S8192x64 (ix2 r d))
      * shapeCast S64x256 x1 shapeCasts_S64x256_S64x256 (ix2 d m) = Cert.Spec.dn * x0 (ix2 r d) * x1 (ix2 d m)
  rw [shapeCast_self, shapeCast_self]
  rfl

/-! ## The blocks the region reads -/

/-- The keys' block index at point `t` is `(t, 0)`, the projection's and the result's `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0)

theorem N32 : cfg0.N = 32 := N_0

theorem lt32 (t : Fin cfg0.N) : t.val < 32 := lt_of_lt_of_eq t.isLt N32

/-- Row `r` of block `t` is row `8192 t + r` of the flat keys. -/
theorem keys_blk_apply (c : Dev nD) (t : Fin cfg0.N) (r : Fin 8192) (d : Fin 64) :
    (iblk0 V c 0 t : Vec Ideal S8192x64 .f32) (ix2 r d)
      = V c main_v4 (ix2 (⟨8192 * t.val + r.val, by have := lt32 t; omega⟩ : Fin 262144) d) := by
  unfold iblk0
  rw [View.read_apply]
  show V c main_v4 _ = V c main_v4 _
  refine congrArg (V c main_v4) (funext fun a => Fin.ext ?_)
  match a with
  | ⟨0, _⟩ => show win0_0.index t 0 * 8192 + 1 * r.val = 8192 * t.val + r.val; rw [(index_facts t).1]; omega
  | ⟨1, _⟩ => show win0_0.index t 1 * 64 + 1 * d.val = d.val; rw [(index_facts t).2.1]; omega

/-- The projection's block is the projection. -/
theorem proj_blk_apply (c : Dev nD) (t : Fin cfg0.N) (d : Fin 64) (m : Fin 256) :
    (iblk0 V c 1 t : Vec Ideal S64x256 .f32) (ix2 d m) = V c main_v3 (ix2 d m) := by
  unfold iblk0
  rw [View.read_apply]
  show V c main_v3 _ = V c main_v3 _
  refine congrArg (V c main_v3) (funext fun a => Fin.ext ?_)
  match a with
  | ⟨0, _⟩ => show win0_1.index t 0 * 64 + 1 * d.val = d.val; rw [(index_facts t).2.2.1]; omega
  | ⟨1, _⟩ => show win0_1.index t 1 * 256 + 1 * m.val = m.val; rw [(index_facts t).2.2.2.1]; omega

/-! ## The maximum over the rows below a bound, block by block -/

section Blocks

variable (f : Fin 262144 → EReal)

/-- The supremum of `f` over the rows below `8192 n`. -/
def below (n : ℕ) : EReal := ⨆ (r : Fin 262144) (_ : r.val < 8192 * n), f r

/-- The supremum of `f` over the 8192 rows of block `n`. -/
def blockSup (n : ℕ) (hn : n < 32) : EReal :=
  ⨆ r : Fin 8192, f ⟨8192 * n + r.val, by have := r.isLt; omega⟩

theorem below_zero : below f 0 = ⊥ :=
  le_antisymm (iSup₂_le fun r hr => absurd hr (by omega)) bot_le

theorem below_succ (n : ℕ) (hn : n < 32) : below f (n + 1) = max (below f n) (blockSup f n hn) := by
  unfold below blockSup
  apply le_antisymm
  · refine iSup₂_le fun r hr => ?_
    by_cases h : r.val < 8192 * n
    · exact le_max_of_le_left (le_iSup₂_of_le r h le_rfl)
    · refine le_max_of_le_right (le_iSup_of_le (⟨r.val - 8192 * n, by omega⟩ : Fin 8192) (le_of_eq (congrArg f (Fin.ext ?_))))
      show r.val = 8192 * n + (r.val - 8192 * n)
      omega
  · refine max_le (iSup₂_le fun r hr => le_iSup₂_of_le r (by omega) le_rfl) (iSup_le fun r' => ?_)
    exact le_iSup₂_of_le (⟨8192 * n + r'.val, by have := r'.isLt; omega⟩ : Fin 262144)
      (by show 8192 * n + r'.val < 8192 * (n + 1); have := r'.isLt; omega) le_rfl

theorem below_all : below f 32 = ⨆ r, f r :=
  le_antisymm (iSup₂_le fun r _ => le_iSup f r)
    (iSup_le fun r => le_iSup₂_of_le r (by have := r.isLt; omega) le_rfl)

end Blocks

/-! ## The running maximum -/

/-- The largest logit of row `r` of the flat keys. -/
def rowSup (c : Dev nD) (r : Fin 262144) : EReal :=
  ⨆ m : Fin 256, Cert.Spec.logit (Cert.Spec.rowK (V c main_v4) r) (Cert.Spec.projOfT (V c main_v3)) m

/-- The block's own maximum at point `t` is the largest logit of the rows of block `t`. -/
theorem pay1_blk (c : Dev nD) (t : Fin cfg0.N) :
    k0_pay1 (F := Ideal) (iblk0 V c 0 t) (iblk0 V c 1 t) (ix2 (0 : Fin 1) (0 : Fin 1))
      = blockSup (rowSup V c) t.val (lt32 t) := by
  refine (pay1_apply _ _).trans ?_
  unfold blockSup rowSup
  refine iSup_congr fun r => iSup_congr fun m => ?_
  have e0 : (fun d : Fin 64 => (iblk0 V c 0 t : Vec Ideal S8192x64 .f32) (ix2 r d))
      = Cert.Spec.rowK (V c main_v4) ⟨8192 * t.val + r.val, by have := lt32 t; have := r.isLt; omega⟩ :=
    funext fun d => keys_blk_apply V c t r d
  have e1 : (fun (m : Fin 256) (d : Fin 64) => (iblk0 V c 1 t : Vec Ideal S64x256 .f32) (ix2 d m))
      = Cert.Spec.projOfT (V c main_v3) :=
    funext fun m => funext fun d => proj_blk_apply V c t d m
  exact congrArg₂ (fun x p => Cert.Spec.logit x p m) e0 e1

/-- The accumulating payload at an index: the larger of what was there and the block's own maximum. -/
theorem pay2_apply (x0 : Vec Ideal S8192x64 .f32) (x1 : Vec Ideal S64x256 .f32) (acc : Vec Ideal S1x1 .f32) (i : S1x1.Idx) :
    k0_pay2 (F := Ideal) x0 x1 acc i = max (acc i) (k0_pay1 (F := Ideal) x0 x1 i) := by
  unfold k0_pay2
  rw [shapeCast_self]
  rfl

/-- After point `n` the result's buffer holds the largest logit of the rows of the blocks up to `n`. -/
theorem gacc0_apply (c : Dev nD) : ∀ (n : ℕ) (hn : n < cfg0.N),
    gacc0 V c n hn (ix2 (0 : Fin 1) (0 : Fin 1)) = below (rowSup V c) (n + 1)
  | 0, hn => by
    rw [gacc0_zero, below_succ _ 0 (by omega), below_zero, max_eq_right bot_le]
    exact pay1_blk V c ⟨0, hn⟩
  | n + 1, hn => by
    have h32 : n + 1 < 32 := lt32 ⟨n + 1, hn⟩
    rw [gacc0_succ, below_succ _ (n + 1) h32, ← gacc0_apply c n (Nat.lt_of_succ_lt hn), pay2_apply]
    exact congrArg (max _) (pay1_blk V c ⟨n + 1, hn⟩)

/-! ## The result array after the run -/

theorem lastLt : 31 < cfg0.N := lt_of_lt_of_eq (by decide : 31 < 32) N32.symm

/-- The result's block at every point is the whole one-element array. -/
theorem xsize_facts : ∀ t : Fin cfg0.N,
    win0_2.xsize (grid0.coords t) (0 : Fin 2) = 1 ∧ win0_2.xsize (grid0.coords t) (1 : Fin 2) = 1 :=
  (by decide +kernel : ∀ t : Fin grid0.N,
    win0_2.xsize (grid0.coords t) (0 : Fin 2) = 1 ∧ win0_2.xsize (grid0.coords t) (1 : Fin 2) = 1)

/-- What the result's buffer holds after the last point. -/
def result (c : Dev nD) : Buf (Elt Ideal) ((c : Thread nD τ).loc main_v5) := gacc0 V c 31 lastLt

/-- The one write-back, at the last point, writes it: block (0, 0) of the one-element array is the array. -/
theorem flushed_eq (c : Dev nD) (t : Fin cfg0.N) (hf : (cfg0.win 2).flush t = true) :
    (dat0 V c).flushed 2 t = ((cfg0.win 2).blk t).view.read (Elt Ideal) (result V c) := by
  have h31 : t.val = 31 := by have := (flush0_2 t).mp hf; have := lt32 t; omega
  obtain ⟨tv, ht⟩ := t
  obtain rfl : tv = 31 := h31
  show (cfg0.win 2).cut (grid0.coords ⟨31, ht⟩) ((dat0 V c).after 2 ⟨31, ht⟩) = _
  rw [after0_2]
  have hz' : (fun a => win0_2.index ⟨31, ht⟩ a * main_v5.ty.shape.size a) = fun _ => 0 :=
    funext fun a => by
      match a with
      | ⟨0, _⟩ => show win0_2.index ⟨31, ht⟩ 0 * _ = 0; rw [(index_facts ⟨31, ht⟩).2.2.2.2.1]; exact Nat.zero_mul _
      | ⟨1, _⟩ => show win0_2.index ⟨31, ht⟩ 1 * _ = 0; rw [(index_facts ⟨31, ht⟩).2.2.2.2.2]; exact Nat.zero_mul _
  exact (Memref.read_access_unit_zero (Elt Ideal) main_v5 hz' (fun a => by rw [congrFun hz' a]; simp) (result V c)).symm

/-- So the result array ends holding what its buffer held after the last point: that point's block covers it. -/
theorem final (c : Dev nD) : (dat0 V c).arrAt 2 cfg0.N = result V c :=
  (dat0 V c).arrAt_eq_of_cover 2 (result V c) (flushed_eq V c) fun i =>
    ⟨⟨31, lastLt⟩, (flush0_2 ⟨31, lastLt⟩).mpr rfl, by
      show i ∈ ((View.whole main_v5).slice (win0_2.rect ⟨31, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨31, lastLt⟩ 0 * win0_2.size 0 ≤ (i 0 : Nat)
          ∧ (i 0 : Nat) < win0_2.index ⟨31, lastLt⟩ 0 * win0_2.size 0 + win0_2.xsize (grid0.coords ⟨31, lastLt⟩) 0
        rw [(index_facts ⟨31, lastLt⟩).2.2.2.2.1, (xsize_facts ⟨31, lastLt⟩).1]; omega
      | ⟨1, _⟩ =>
        show win0_2.index ⟨31, lastLt⟩ 1 * win0_2.size 1 ≤ (i 1 : Nat)
          ∧ (i 1 : Nat) < win0_2.index ⟨31, lastLt⟩ 1 * win0_2.size 1 + win0_2.xsize (grid0.coords ⟨31, lastLt⟩) 1
        rw [(index_facts ⟨31, lastLt⟩).2.2.2.2.2, (xsize_facts ⟨31, lastLt⟩).2]; omega⟩

/-- After the first region its one-element result holds the largest logit of all the flat keys' rows. -/
theorem arr0 (c : Dev nD) (i : S1x1.Idx) :
    (dat0 (F := Ideal) V c).arrAt 2 cfg0.N i = Cert.Spec.gmaxK (V c main_v4) (V c main_v3) := by
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  refine (congrFun (final V c) _).trans ?_
  show gacc0 V c 31 lastLt (ix2 (0 : Fin 1) (0 : Fin 1)) = _
  rw [gacc0_apply, below_all]
  rfl

end Cert.KernelIdeal.Val

end
-- ==== Proof.KI.Val1.lean ====
import proofs.«103724_j47090021433765_1_alg».proof.Proof.KI.Reg1Defs
import proofs.«103724_j47090021433765_1_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The value of the second kernel region over the extended reals: after its last grid point the output array holds
  every head's context.

  A grid point is (head g, tile s) with s ∈ {0, 1}; the point's key and value blocks are rows 2048 s … 2048 s + 2047 of
  head g. The body's contribution at (m, e) is the sum over the tile's 2048 rows of the key row's feature at m times the
  value entry at e: a product of the feature block with the value block contracting their rows, the feature being
  c16 · (exp (logit − half norm − stabiliser) + eps) with the logit a product against the transposed projection and the
  half norm a lane sum. The accumulator is zero plus the first tile's contribution after the first tile, plus the second
  tile's after the second, where it is written back as the head's block; a head's 4096 rows are its two tiles, so what
  is written back is the head's context, and the written blocks cover the output.
-/

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

namespace R1

/-! ## The first product: a key row against the projection -/

theorem lhs_dQP_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem lhs_dQP_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhs_dQP_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhs_dQP_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- A [2048, 64] by [64, 256] product into zero, at (r, m): the sum over the 64 shared coordinates. -/
theorem matmulQP_apply (a : FVec Ideal S2048x64 .bf16) (b : FVec Ideal S64x256 .bf16) (r : Fin 2048) (m : Fin 256) :
    matmul dot_S2048x64_S64x256_S2048x256_1_0_0_1_n_n none a b (constant (F := Ideal) S2048x256 .f32 0x00000000#32) (ix2 r m)
      = ∑ d : Fin 64, a (ix2 r d) * b (ix2 d m) := by
  simp only [matmul]
  rw [Ideal.matmul_constant_zero_apply, ← Equiv.sum_comp (ValueIdx.contrEquiv1 dot_S2048x64_S64x256_S2048x256_1_0_0_1_n_n 64 rfl rfl).symm]
  refine Finset.sum_congr rfl fun k _ => ?_
  have hk := ValueIdx.contrEquiv1_symm_val dot_S2048x64_S64x256_S2048x256_1_0_0_1_n_n 64 rfl rfl k
  have el : dot_S2048x64_S64x256_S2048x256_1_0_0_1_n_n.lhsIdx (ix2 r m) ((ValueIdx.contrEquiv1 dot_S2048x64_S64x256_S2048x256_1_0_0_1_n_n 64 rfl rfl).symm k) = ix2 r k := funext fun ax => Fin.ext (by
    match ax with
    | ⟨0, _⟩ => exact lhs_dQP_0 _ _
    | ⟨1, _⟩ => exact (lhs_dQP_1 _ _).trans hk)
  have er : dot_S2048x64_S64x256_S2048x256_1_0_0_1_n_n.rhsIdx (ix2 r m) ((ValueIdx.contrEquiv1 dot_S2048x64_S64x256_S2048x256_1_0_0_1_n_n 64 rfl rfl).symm k) = ix2 k m := funext fun ax => Fin.ext (by
    match ax with
    | ⟨0, _⟩ => exact (rhs_dQP_0 _ _).trans hk
    | ⟨1, _⟩ => exact rhs_dQP_1 _ _)
  rw [el, er]

/-! ## The second product: the features against the value rows, over the tile's rows -/

theorem lhs_dKV_0 (i : S256x64.Idx) (q : dot_S2048x256_S2048x64_S256x64_0_0_1_1_n_n.contr.Idx) :
    (dot_S2048x256_S2048x64_S256x64_0_0_1_1_n_n.lhsIdx i q 0).val = (q ⟨0, by decide⟩).val :=
  dot_S2048x256_S2048x64_S256x64_0_0_1_1_n_n.lhsIdx_val_of_single rfl i q
theorem lhs_dKV_1 (i : S256x64.Idx) (q : dot_S2048x256_S2048x64_S256x64_0_0_1_1_n_n.contr.Idx) :
    (dot_S2048x256_S2048x64_S256x64_0_0_1_1_n_n.lhsIdx i q 1).val = (i 0).val := by
  unfold DotDims.lhsIdx
  rw [dif_neg (show ¬(1 : Fin S2048x256.rank) ∈ dot_S2048x256_S2048x64_S256x64_0_0_1_1_n_n.lhsBatch by decide), dif_pos (show (1 : Fin S2048x256.rank) ∈ dot_S2048x256_S2048x64_S256x64_0_0_1_1_n_n.lhsNonContracting by decide)]
  rfl
theorem rhs_dKV_0 (i : S256x64.Idx) (q : dot_S2048x256_S2048x64_S256x64_0_0_1_1_n_n.contr.Idx) :
    (dot_S2048x256_S2048x64_S256x64_0_0_1_1_n_n.rhsIdx i q 0).val = (q ⟨0, by decide⟩).val :=
  dot_S2048x256_S2048x64_S256x64_0_0_1_1_n_n.rhsIdx_val_of_single rfl i q
theorem rhs_dKV_1 (i : S256x64.Idx) (q : dot_S2048x256_S2048x64_S256x64_0_0_1_1_n_n.contr.Idx) :
    (dot_S2048x256_S2048x64_S256x64_0_0_1_1_n_n.rhsIdx i q 1).val = (i 1).val := by
  unfold DotDims.rhsIdx
  rw [dif_neg (show ¬(1 : Fin S2048x64.rank) ∈ dot_S2048x256_S2048x64_S256x64_0_0_1_1_n_n.rhsBatch by decide), dif_pos (show (1 : Fin S2048x64.rank) ∈ dot_S2048x256_S2048x64_S256x64_0_0_1_1_n_n.rhsNonContracting by decide)]
  rfl

/-- A [2048, 256] by [2048, 64] product contracting the rows of both, into zero, at (m, e): the sum over the 2048 rows. -/
theorem matmulKV_apply (a : FVec Ideal S2048x256 .bf16) (b : FVec Ideal S2048x64 .bf16) (m : Fin 256) (e : Fin 64) :
    matmul dot_S2048x256_S2048x64_S256x64_0_0_1_1_n_n none a b (constant (F := Ideal) S256x64 .f32 0x00000000#32) (ix2 m e)
      = ∑ r : Fin 2048, a (ix2 r m) * b (ix2 r e) := by
  simp only [matmul]
  rw [Ideal.matmul_constant_zero_apply, ← Equiv.sum_comp (ValueIdx.contrEquiv1 dot_S2048x256_S2048x64_S256x64_0_0_1_1_n_n 2048 rfl rfl).symm]
  refine Finset.sum_congr rfl fun k _ => ?_
  have hk := ValueIdx.contrEquiv1_symm_val dot_S2048x256_S2048x64_S256x64_0_0_1_1_n_n 2048 rfl rfl k
  have el : dot_S2048x256_S2048x64_S256x64_0_0_1_1_n_n.lhsIdx (ix2 m e) ((ValueIdx.contrEquiv1 dot_S2048x256_S2048x64_S256x64_0_0_1_1_n_n 2048 rfl rfl).symm k) = ix2 k m := funext fun ax => Fin.ext (by
    match ax with
    | ⟨0, _⟩ => exact (lhs_dKV_0 _ _).trans hk
    | ⟨1, _⟩ => exact lhs_dKV_1 _ _)
  have er : dot_S2048x256_S2048x64_S256x64_0_0_1_1_n_n.rhsIdx (ix2 m e) ((ValueIdx.contrEquiv1 dot_S2048x256_S2048x64_S256x64_0_0_1_1_n_n 2048 rfl rfl).symm k) = ix2 k e := funext fun ax => Fin.ext (by
    match ax with
    | ⟨0, _⟩ => exact (rhs_dKV_0 _ _).trans hk
    | ⟨1, _⟩ => exact rhs_dKV_1 _ _)
  rw [el, er]

/-! ## The layout operations of the payload, at an index -/

/-- A [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row r of a [2048] reduction's index, with the dropped coordinate k put back, is (r, k). -/
theorem lift_row (h : S2048x64.Reduces [1] S2048) (r : Fin 2048) (k : Fin (S2048x64.size 1)) :
    h.lift (ix1 r) k = ix2 r (⟨k.val, k.isLt⟩ : Fin 64) := by
  funext c; apply Fin.ext
  fin_cases c <;> rfl

/-- The lane sum of a [2048, 64] array at row r. -/
theorem rowSum_apply (a : FVec Ideal S2048x64 .f32) (r : Fin 2048) :
    multiReduction (F := Ideal) .add [1] S2048 a 0x00000000#32 reduces_S2048x64_S2048 (.inl rfl) rfl (ix1 r)
      = ∑ d : Fin 64, a (ix2 r d) := by
  refine (Ideal.multiReduction_add_single a _ reduces_S2048x64_S2048 (.inl rfl) rfl (ix1 r)).trans ?_
  exact Finset.sum_congr rfl fun k _ => congrArg a (lift_row _ r k)

/-! ## The payload's stages -/

/-- The tile's logits: the scaled key rows against the transposed projection. -/
def logits (x0 : Vec Ideal S1x2048x64 .f32) (x2 : Vec Ideal S64x256 .f32) : FVec Ideal S2048x256 .f32 :=
  matmul dot_S2048x64_S64x256_S2048x256_1_0_0_1_n_n none
    (truncf .bf16 (mulf (broadcast S2048x64 (Scalar.ofBits (F := Ideal) .f32 0x3EB504F3#32)) (shapeCast S2048x64 x0 shapeCasts_S1x2048x64_S2048x64)) bitsLt_bf16_f32)
    (truncf .bf16 (shapeCast S64x256 x2 shapeCasts_S64x256_S64x256) bitsLt_bf16_f32)
    (constant (F := Ideal) S2048x256 .f32 0x00000000#32)

theorem logits_apply (x0 : Vec Ideal S1x2048x64 .f32) (x2 : Vec Ideal S64x256 .f32) (r : Fin 2048) (m : Fin 256) :
    logits x0 x2 (ix2 r m) = Cert.Spec.logit (fun d => x0 (ix3 0 r d)) (fun m d => x2 (ix2 d m)) m := by
  unfold logits
  refine (matmulQP_apply _ _ r m).trans ?_
  unfold Cert.Spec.logit
  refine Finset.sum_congr rfl fun d _ => ?_
  have h0 : shapeCast S2048x64 x0 shapeCasts_S1x2048x64_S2048x64 (ix2 r d) = x0 (ix3 0 r d) :=
    shapeCast_1ab_ab_apply x0 _ r d
  have h2 : shapeCast S64x256 x2 shapeCasts_S64x256_S64x256 = x2 := shapeCast_self x2 _
  show Cert.Spec.dn * shapeCast S2048x64 x0 shapeCasts_S1x2048x64_S2048x64 (ix2 r d)
      * shapeCast S64x256 x2 shapeCasts_S64x256_S64x256 (ix2 d m) = _
  rw [h0, h2]

/-- The tile's half squared norms, a column. -/
def halfNorms (x0 : Vec Ideal S1x2048x64 .f32) : FVec Ideal S2048x1 .f32 :=
  mulf (shapeCast S2048x1
      (multiReduction (F := Ideal) .add [1] S2048
        (mulf (shapeCast S2048x64 x0 shapeCasts_S1x2048x64_S2048x64) (shapeCast S2048x64 x0 shapeCasts_S1x2048x64_S2048x64))
        0x00000000#32 reduces_S2048x64_S2048 (.inl rfl) rfl) shapeCasts_S2048_S2048x1)
    (broadcast S2048x1 (Scalar.ofBits (F := Ideal) .f32 0x3D800000#32))

theorem halfNorms_apply (x0 : Vec Ideal S1x2048x64 .f32) (r : Fin 2048) :
    halfNorms x0 (ix2 r (0 : Fin 1)) = Cert.Spec.hnorm (fun d => x0 (ix3 0 r d)) := by
  unfold halfNorms Cert.Spec.hnorm
  refine congrArg (· * Cert.Spec.c16) ?_
  refine (shapeCast_a_a1_apply _ shapeCasts_S2048_S2048x1 r 0).trans ?_
  refine (rowSum_apply _ r).trans ?_
  refine Finset.sum_congr rfl fun d _ => ?_
  have h0 : shapeCast S2048x64 x0 shapeCasts_S1x2048x64_S2048x64 (ix2 r d) = x0 (ix3 0 r d) :=
    shapeCast_1ab_ab_apply x0 _ r d
  show shapeCast S2048x64 x0 shapeCasts_S1x2048x64_S2048x64 (ix2 r d) * shapeCast S2048x64 x0 shapeCasts_S1x2048x64_S2048x64 (ix2 r d) = _
  rw [h0]

/-- The tile's features. -/
def featBlk (x0 : Vec Ideal S1x2048x64 .f32) (x2 : Vec Ideal S64x256 .f32) (x3 : Vec Ideal S1x1 .f32) : FVec Ideal S2048x256 .f32 :=
  mulf (broadcast S2048x256 (Scalar.ofBits (F := Ideal) .f32 0x3D800000#32))
    (addf (exp (subf (subf (logits x0 x2) (broadcastTo S2048x256 (halfNorms x0) broadcasts_S2048x1_S2048x256))
        (broadcastTo S2048x256 (shapeCast S1x1 x3 shapeCasts_S1x1_S1x1) broadcasts_S1x1_S2048x256)))
      (broadcast S2048x256 (Scalar.ofBits (F := Ideal) .f32 0x38D1B717#32)))

theorem featBlk_apply (x0 : Vec Ideal S1x2048x64 .f32) (x2 : Vec Ideal S64x256 .f32) (x3 : Vec Ideal S1x1 .f32) (r : Fin 2048) (m : Fin 256) :
    featBlk x0 x2 x3 (ix2 r m)
      = Cert.Spec.feat (fun d => x0 (ix3 0 r d)) (fun m d => x2 (ix2 d m)) (x3 (ix2 0 0)) m := by
  unfold featBlk Cert.Spec.feat
  have hn : broadcastTo S2048x256 (halfNorms x0) broadcasts_S2048x1_S2048x256 (ix2 r m) = Cert.Spec.hnorm (fun d => x0 (ix3 0 r d)) :=
    (broadcastTo_a1_ab_apply (halfNorms x0) broadcasts_S2048x1_S2048x256 r m).trans (halfNorms_apply x0 r)
  have hs : broadcastTo S2048x256 (shapeCast S1x1 x3 shapeCasts_S1x1_S1x1) broadcasts_S1x1_S2048x256 (ix2 r m) = x3 (ix2 0 0) :=
    (broadcastTo_11_ab_apply _ broadcasts_S1x1_S2048x256 r m).trans (congrFun (shapeCast_self x3 _) _)
  show Cert.Spec.c16 * (Ideal.exp (logits x0 x2 (ix2 r m) - broadcastTo S2048x256 (halfNorms x0) broadcasts_S2048x1_S2048x256 (ix2 r m)
      - broadcastTo S2048x256 (shapeCast S1x1 x3 shapeCasts_S1x1_S1x1) broadcasts_S1x1_S2048x256 (ix2 r m)) + Cert.Spec.eps) = _
  rw [logits_apply, hn, hs]

/-- The payload is the features against the value rows, contracted over the tile's rows. -/
theorem pay3_eq (x0 x1 : Vec Ideal S1x2048x64 .f32) (x2 : Vec Ideal S64x256 .f32) (x3 : Vec Ideal S1x1 .f32) :
    k1_pay3 (F := Ideal) x0 x1 x2 x3
      = shapeCast S1x256x64
          (matmul dot_S2048x256_S2048x64_S256x64_0_0_1_1_n_n none (truncf .bf16 (featBlk x0 x2 x3) bitsLt_bf16_f32)
            (truncf .bf16 (shapeCast S2048x64 x1 shapeCasts_S1x2048x64_S2048x64) bitsLt_bf16_f32)
            (constant (F := Ideal) S256x64 .f32 0x00000000#32)) shapeCasts_S256x64_S1x256x64 := rfl

/-- One tile's contribution at (m, e): the sum over the tile's 2048 rows of the key row's feature times the value entry. -/
theorem pay3_apply (x0 x1 : Vec Ideal S1x2048x64 .f32) (x2 : Vec Ideal S64x256 .f32) (x3 : Vec Ideal S1x1 .f32) (m : Fin 256) (e : Fin 64) :
    k1_pay3 (F := Ideal) x0 x1 x2 x3 (ix3 0 m e)
      = ∑ r : Fin 2048, Cert.Spec.feat (fun d => x0 (ix3 0 r d)) (fun m d => x2 (ix2 d m)) (x3 (ix2 0 0)) m * x1 (ix3 0 r e) := by
  rw [pay3_eq]
  refine (shapeCast_ab_1ab_apply _ shapeCasts_S256x64_S1x256x64 0 m e).trans ?_
  refine (matmulKV_apply _ _ m e).trans ?_
  refine Finset.sum_congr rfl fun r _ => ?_
  have h1 : shapeCast S2048x64 x1 shapeCasts_S1x2048x64_S2048x64 (ix2 r e) = x1 (ix3 0 r e) :=
    shapeCast_1ab_ab_apply x1 _ r e
  show featBlk x0 x2 x3 (ix2 r m) * shapeCast S2048x64 x1 shapeCasts_S1x2048x64_S2048x64 (ix2 r e) = _
  rw [featBlk_apply, h1]

/-! ## The accumulator's two other payloads -/

/-- The accumulating store's payload is the sum, entry by entry. -/
theorem pay1_apply (a : Vec Ideal S1x256x64 .f32) (b : FVec Ideal S1x256x64 .f32) (i : S1x256x64.Idx) :
    k1_pay1 (F := Ideal) a b i = a i + b i := by
  unfold k1_pay1
  exact congrFun (shapeCast_self (addf a b) shapeCasts_S1x256x64_S1x256x64) i

/-- The reset's payload is zero everywhere. -/
theorem pay2_apply (i : S1x256x64.Idx) : k1_pay2 (F := Ideal) i = 0 := by
  unfold k1_pay2
  refine (congrFun (shapeCast_self _ shapeCasts_S1x256x64_S1x256x64) i).trans ?_
  exact Ideal.ofBits_zero_f32

/-! ## The grid: a point's head and the rows of its tile -/

-- the TensorCore's buffer contents when the second kernel region is entered, at the ideal values
variable (V : (c : Dev nD) → (b : Ref sig .tc) → Buf (Elt Ideal) ((c : Thread nD τ).loc b))

/-- The printed index maps over the grid: keys and values move with (head, tile), the projection and the stabiliser stay,
    the output moves with the head. -/
theorem idx_facts1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 2 ∧ win1_4.index t (1 : Fin 3) = 0 ∧ win1_4.index t (2 : Fin 3) = 0 :=
  (by decide +kernel : ∀ t : Fin grid1.N, _)

/-- The head a grid point works on. -/
def headOf (t : Fin cfg1.N) : Fin 64 := ⟨t.val / 2, by have := t.isLt; have hN : cfg1.N = 128 := N_1; omega⟩
/-- Row `r` of the point's tile, as a row of its head. -/
def rowOf (t : Fin cfg1.N) (r : Fin 2048) : Fin 4096 := ⟨2048 * (t.val % 2) + r.val, by have := r.isLt; omega⟩

/-! ## The blocks the body loads, at an index -/

theorem kblk_apply (c : Dev nD) (t : Fin cfg1.N) (r : Fin 2048) (d : Fin 64) :
    (iblk1 V c 0 t : Vec Ideal S1x2048x64 .f32) (ix3 0 r d) = (V c main_v1 : Vec Ideal S64x4096x64 .f32) (ix3 (headOf t) (rowOf t r) d) := by
  obtain ⟨e0, e1, e2, -⟩ := idx_facts1 t
  show V c main_v1 (((cfg1.win 0).blk t).view.emb (ix3 0 r d)) = _
  refine congrArg (V c main_v1) (funext fun a => Fin.ext ?_)
  match a with
  | ⟨0, _⟩ => show win1_0.index t (0 : Fin 3) * 1 + 1 * 0 = t.val / 2; omega
  | ⟨1, _⟩ => show win1_0.index t (1 : Fin 3) * 2048 + 1 * r.val = 2048 * (t.val % 2) + r.val; omega
  | ⟨2, _⟩ => show win1_0.index t (2 : Fin 3) * 64 + 1 * d.val = d.val; omega

theorem vblk_apply (c : Dev nD) (t : Fin cfg1.N) (r : Fin 2048) (d : Fin 64) :
    (iblk1 V c 1 t : Vec Ideal S1x2048x64 .f32) (ix3 0 r d) = (V c main_v2 : Vec Ideal S64x4096x64 .f32) (ix3 (headOf t) (rowOf t r) d) := by
  obtain ⟨-, -, -, e0, e1, e2, -⟩ := idx_facts1 t
  show V c main_v2 (((cfg1.win 1).blk t).view.emb (ix3 0 r d)) = _
  refine congrArg (V c main_v2) (funext fun a => Fin.ext ?_)
  match a with
  | ⟨0, _⟩ => show win1_1.index t (0 : Fin 3) * 1 + 1 * 0 = t.val / 2; omega
  | ⟨1, _⟩ => show win1_1.index t (1 : Fin 3) * 2048 + 1 * r.val = 2048 * (t.val % 2) + r.val; omega
  | ⟨2, _⟩ => show win1_1.index t (2 : Fin 3) * 64 + 1 * d.val = d.val; omega

theorem pblk_apply (c : Dev nD) (t : Fin cfg1.N) (d : Fin 64) (m : Fin 256) :
    (iblk1 V c 2 t : Vec Ideal S64x256 .f32) (ix2 d m) = (V c main_v3 : Vec Ideal S64x256 .f32) (ix2 d m) := by
  obtain ⟨-, -, -, -, -, -, e0, e1, -⟩ := idx_facts1 t
  show V c main_v3 (((cfg1.win 2).blk t).view.emb (ix2 d m)) = _
  refine congrArg (V c main_v3) (funext fun a => Fin.ext ?_)
  match a with
  | ⟨0, _⟩ => show win1_2.index t (0 : Fin 2) * 64 + 1 * d.val = d.val; omega
  | ⟨1, _⟩ => show win1_2.index t (1 : Fin 2) * 256 + 1 * m.val = m.val; omega

theorem gblk_apply (c : Dev nD) (t : Fin cfg1.N) :
    (iblk1 V c 3 t : Vec Ideal S1x1 .f32) (ix2 0 0) = (V c main_v5 : Vec Ideal S1x1 .f32) (ix2 0 0) := by
  obtain ⟨-, -, -, -, -, -, -, -, e0, e1, -⟩ := idx_facts1 t
  show V c main_v5 (((cfg1.win 3).blk t).view.emb (ix2 0 0)) = _
  refine congrArg (V c main_v5) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-! ## One tile's contribution, and the accumulator at a head's second tile -/

/-- The context of every head, as contents of the output array. -/
abbrev ctx (c : Dev nD) : Vec Ideal S64x256x64 .f32 :=
  Cert.Spec.ctxK (V c main_v1) (V c main_v2) (V c main_v3) (V c main_v5 (ix2 0 0))

/-- One summand of a head's context: a key row's feature times the value entry. -/
def term (c : Dev nD) (g : Fin 64) (m : Fin 256) (e : Fin 64) (n : Fin 4096) : EReal :=
  Cert.Spec.feat (Cert.Spec.row3 (V c main_v1) g n) (Cert.Spec.projOfT (V c main_v3)) (V c main_v5 (ix2 0 0)) m
    * (V c main_v2 : Vec Ideal S64x4096x64 .f32) (ix3 g n e)

theorem ctx_apply (c : Dev nD) (g : Fin 64) (m : Fin 256) (e : Fin 64) :
    ctx V c (ix3 g m e) = ∑ n : Fin 4096, term V c g m e n := rfl

/-- A tile's contribution at (m, e): the summands of its 2048 rows. -/
theorem contrib1_apply (c : Dev nD) (t : Fin cfg1.N) (m : Fin 256) (e : Fin 64) :
    contrib1 V c t (ix3 0 m e) = ∑ r : Fin 2048, term V c (headOf t) m e (rowOf t r) := by
  unfold contrib1
  refine (pay3_apply (iblk1 V c 0 t) (iblk1 V c 1 t) (iblk1 V c 2 t) (iblk1 V c 3 t) m e).trans ?_
  refine Finset.sum_congr rfl fun r _ => ?_
  unfold term
  have hk : (fun d : Fin 64 => (iblk1 V c 0 t : Vec Ideal S1x2048x64 .f32) (ix3 0 r d))
      = Cert.Spec.row3 (V c main_v1) (headOf t) (rowOf t r) := funext fun d => kblk_apply V c t r d
  have hp : (fun (m : Fin 256) (d : Fin 64) => (iblk1 V c 2 t : Vec Ideal S64x256 .f32) (ix2 d m))
      = Cert.Spec.projOfT (V c main_v3) := funext fun m => funext fun d => pblk_apply V c t d m
  rw [hk, hp, gblk_apply V c t, vblk_apply V c t r e]

/-- At a head's second tile the accumulator holds the two tiles' contributions. -/
theorem sacc1_second_apply (c : Dev nD) (t : Fin cfg1.N) (hodd : t.val % 2 = 1) (m : Fin 256) (e : Fin 64) :
    sacc1 V c t.val t.isLt (ix3 0 m e)
      = contrib1 V c ⟨t.val - 1, Nat.lt_of_le_of_lt (Nat.sub_le _ _) t.isLt⟩ (ix3 0 m e) + contrib1 V c t (ix3 0 m e) := by
  rw [sacc1_odd V c t hodd, pay1_apply]
  have hev := sacc1_even V c ⟨t.val - 1, Nat.lt_of_le_of_lt (Nat.sub_le _ _) t.isLt⟩ (by show (t.val - 1) % 2 = 0; omega)
  have hev' : sacc1 V c (t.val - 1) (Nat.lt_of_le_of_lt (Nat.sub_le _ _) t.isLt)
      = k1_pay1 (k1_pay2 (F := Ideal)) (contrib1 V c ⟨t.val - 1, Nat.lt_of_le_of_lt (Nat.sub_le _ _) t.isLt⟩) := hev
  rw [hev', pay1_apply, pay2_apply, zero_add]

/-! ## A head's 4096 rows are its two tiles of 2048 -/

theorem sum_two_tiles (f : Fin 4096 → EReal) :
    ∑ n : Fin 4096, f n = ∑ r : Fin 2048, f ⟨r.val, by have := r.isLt; omega⟩ + ∑ r : Fin 2048, f ⟨2048 + r.val, by have := r.isLt; omega⟩ :=
  Fin.sum_univ_add (a := 2048) (b := 2048) f

/-- At a head's second tile the accumulator holds the head's context. -/
theorem sacc1_second_eq (c : Dev nD) (t : Fin cfg1.N) (hodd : t.val % 2 = 1) (m : Fin 256) (e : Fin 64) :
    sacc1 V c t.val t.isLt (ix3 0 m e) = ctx V c (ix3 (headOf t) m e) := by
  rw [sacc1_second_apply V c t hodd, contrib1_apply, contrib1_apply, ctx_apply, sum_two_tiles]
  have hh : headOf ⟨t.val - 1, Nat.lt_of_le_of_lt (Nat.sub_le _ _) t.isLt⟩ = headOf t :=
    Fin.ext (by show (t.val - 1) / 2 = t.val / 2; omega)
  rw [hh]
  refine congrArg₂ (· + ·) (Finset.sum_congr rfl fun r _ => ?_) (Finset.sum_congr rfl fun r _ => ?_)
  · exact congrArg (term V c (headOf t) m e) (Fin.ext (by show 2048 * ((t.val - 1) % 2) + r.val = r.val; omega))
  · exact congrArg (term V c (headOf t) m e) (Fin.ext (by show 2048 * (t.val % 2) + r.val = 2048 + r.val; omega))

/-! ## From the write-backs to the array -/

/-- What a head's second tile writes back is the head's block of the context. -/
theorem flushed4_eq (c : Dev nD) (t : Fin cfg1.N) (hf : (cfg1.win 4).flush t = true) :
    (dat1 V c).flushed 4 t = ((cfg1.win 4).blk t).view.read (Elt Ideal) (ctx V c) := by
  have hodd : t.val % 2 = 1 := (flush1_4 t).mp hf
  obtain ⟨-, -, -, -, -, -, -, -, -, -, e0, e1, e2⟩ := idx_facts1 t
  show (cfg1.win 4).cut (grid1.coords t) ((dat1 V c).after 4 t) = _
  rw [after1_4]
  funext y
  obtain ⟨u, m, e, rfl⟩ : ∃ (u : Fin 1) (m : Fin 256) (e : Fin 64), y = ix3 u m e := ⟨y 0, y 1, y 2, eq_ix3 y⟩
  obtain rfl : u = 0 := Subsingleton.elim _ _
  show sacc1 V c t.val t.isLt (ix3 0 m e) = ctx V c (((cfg1.win 4).blk t).view.emb (ix3 0 m e))
  rw [sacc1_second_eq V c t hodd]
  refine congrArg (ctx V c) (funext fun a => Fin.ext ?_)
  match a with
  | ⟨0, _⟩ => show t.val / 2 = win1_4.index t (0 : Fin 3) * 1 + 1 * 0; omega
  | ⟨1, _⟩ => show m.val = win1_4.index t (1 : Fin 3) * 256 + 1 * m.val; omega
  | ⟨2, _⟩ => show e.val = win1_4.index t (2 : Fin 3) * 64 + 1 * e.val; omega

/-- An index of the output is in point `t`'s block iff each coordinate is in the block's range on its axis. -/
theorem mem_blk4 (t : Fin cfg1.N) (i : S64x256x64.Idx) :
    i ∈ ((cfg1.win 4).blk t).view.set ↔ ∀ a : Fin 3, win1_4.index t a * S1x256x64.size a ≤ (i a).val ∧ (i a).val < win1_4.index t a * S1x256x64.size a + S1x256x64.size a := by
  show i ∈ ((View.whole main_v6).slice (win1_4.rect t)).set ↔ _
  rw [View.set_slice_whole, Rect.mem_set_unit]
  exact Iff.rfl

/-- Every index of the output is in the block of its head's second tile, which is written back. -/
theorem cover4 (i : S64x256x64.Idx) :
    ∃ t : Fin cfg1.N, (cfg1.win 4).flush t = true ∧ i ∈ ((cfg1.win 4).blk t).view.set := by
  have hN : cfg1.N = 128 := N_1
  have h0 : (i 0).val < 64 := (i 0).isLt
  have h1 : (i 1).val < 256 := (i 1).isLt
  have h2 : (i 2).val < 64 := (i 2).isLt
  let t : Fin cfg1.N := ⟨2 * (i 0).val + 1, by omega⟩
  have htv : t.val = 2 * (i 0).val + 1 := rfl
  obtain ⟨-, -, -, -, -, -, -, -, -, -, e0, e1, e2⟩ := idx_facts1 t
  refine ⟨t, (flush1_4 t).mpr (by omega), ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 64 ≤ (i 2).val ∧ (i 2).val < win1_4.index t (2 : Fin 3) * 64 + 64; omega

end R1

-- the TensorCore's buffer contents when the second kernel region is entered, at the ideal values
variable (V : (c : Dev nD) → (b : Ref sig .tc) → Buf (Elt Ideal) ((c : Thread nD τ).loc b))

/-- After the second region its result holds every head's context, the stabiliser read off the one-element array. -/
theorem arr1 (c : Dev nD) (i : S64x256x64.Idx) :
    (dat1 (F := Ideal) V c).arrAt 4 cfg1.N i
      = Cert.Spec.ctxK (V c main_v1) (V c main_v2) (V c main_v3) (V c main_v5 (ix2 0 0)) i :=
  congrFun ((dat1 (F := Ideal) V c).arrAt_eq_of_cover 4 (R1.ctx V c) (fun t hf => R1.flushed4_eq V c t hf) R1.cover4) i

end Cert.KernelIdeal.Val

end
-- ==== Proof.KI.Val2.lean ====
/-
  The value of the third kernel region over the extended reals: after its last grid point the output array holds
  every head's output rows.
  At a grid point (head, tile) the stored block is, at row `r` and column `e`, the sum over the 256 projection rows of
  the query row's feature — stabilised by the row's own largest logit, a fold of `max` from the least element, hence a
  supremum — times the head's context at (m, e). Every point writes its block back and the blocks tile the array, the
  block of row `n` of head `g` being point `2 g + n / 2048`; so the array is one function of the three input arrays.
-/
import proofs.«103724_j47090021433765_1_alg».proof.Proof.KI.Reg2
import proofs.«103724_j47090021433765_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the TensorCore's buffer contents when the third kernel region is entered, at the ideal values
variable (V : (c : Dev nD) → (b : Ref sig .tc) → Buf (Elt Ideal) ((c : Thread nD τ).loc b))

namespace R2

/-! ## The two products read at an index -/

theorem lhsQP_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem lhsQP_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhsQP_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhsQP_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- The logits' product at row `r` and projection row `m`: the sum over the 64 entries. -/
theorem matmulQP_apply {φ₁ φ₂ : FTy} (a : FVec Ideal S2048x64 φ₁) (b : FVec Ideal S64x256 φ₂) (r : Fin 2048) (m : Fin 256) :
    matmul dot_S2048x64_S64x256_S2048x256_1_0_0_1_n_n none a b (constant (F := Ideal) S2048x256 .f32 0x00000000#32) (ix2 r m)
      = ∑ d : Fin 64, a (ix2 r d) * b (ix2 d m) := by
  simp only [matmul]
  rw [Ideal.matmul_constant_zero_apply, ← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 r m) ((contrEquiv1 dot_S2048x64_S64x256_S2048x256_1_0_0_1_n_n 64 rfl rfl).symm k) = ix2 r k := funext fun ax => Fin.ext (by
    match ax with
    | ⟨0, _⟩ => exact lhsQP_0 _ _
    | ⟨1, _⟩ => exact (lhsQP_1 _ _).trans hk)
  have er : dot_S2048x64_S64x256_S2048x256_1_0_0_1_n_n.rhsIdx (ix2 r m) ((contrEquiv1 dot_S2048x64_S64x256_S2048x256_1_0_0_1_n_n 64 rfl rfl).symm k) = ix2 k m := funext fun ax => Fin.ext (by
    match ax with
    | ⟨0, _⟩ => exact (rhsQP_0 _ _).trans hk
    | ⟨1, _⟩ => exact rhsQP_1 _ _)
  rw [el, er]

theorem lhsFC_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhsFC_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhsFC_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhsFC_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The result's product at row `r` and column `e`: the sum over the 256 features. -/
theorem matmulFC_apply {φ₁ φ₂ : FTy} (a : FVec Ideal S2048x256 φ₁) (b : FVec Ideal S256x64 φ₂) (r : Fin 2048) (e : Fin 64) :
    matmul dot_S2048x256_S256x64_S2048x64_1_0_0_1_n_n none a b (constant (F := Ideal) S2048x64 .f32 0x00000000#32) (ix2 r e)
      = ∑ m : Fin 256, a (ix2 r m) * b (ix2 m e) := by
  simp only [matmul]
  rw [Ideal.matmul_constant_zero_apply, ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 r e) ((contrEquiv1 dot_S2048x256_S256x64_S2048x64_1_0_0_1_n_n 256 rfl rfl).symm k) = ix2 r k := funext fun ax => Fin.ext (by
    match ax with
    | ⟨0, _⟩ => exact lhsFC_0 _ _
    | ⟨1, _⟩ => exact (lhsFC_1 _ _).trans hk)
  have er : dot_S2048x256_S256x64_S2048x64_1_0_0_1_n_n.rhsIdx (ix2 r e) ((contrEquiv1 dot_S2048x256_S256x64_S2048x64_1_0_0_1_n_n 256 rfl rfl).symm k) = ix2 k e := funext fun ax => Fin.ext (by
    match ax with
    | ⟨0, _⟩ => exact (rhsFC_0 _ _).trans hk
    | ⟨1, _⟩ => exact rhsFC_1 _ _)
  rw [el, er]

/-! ## The two reductions along a row -/

/-- The sum of a row's 64 entries. -/
theorem rowSum_apply (src : FVec Ideal S2048x64 .f32) (hφ : FKind.Formats .f32)
    (hacc : (0x00000000#32 : BitVec 32) = 0x00000000#32) (r : Fin 2048) :
    multiReduction .add [1] S2048 src 0x00000000#32 reduces_S2048x64_S2048 hφ hacc (ix1 r)
      = ∑ d : Fin 64, src (ix2 r d) := by
  refine (Ideal.multiReduction_add_single src 0x00000000#32 reduces_S2048x64_S2048 hφ hacc (ix1 r)).trans ?_
  refine Finset.sum_congr rfl fun d _ => congrArg src (funext fun ax => Fin.ext ?_)
  match ax with
  | ⟨0, _⟩ => rfl
  | ⟨1, _⟩ => rfl

/-- The word of the least float is the least extended real. -/
theorem ofBits_neg_inf : Ideal.ofBits .f32 0xFF800000#32 = (⊥ : EReal) := by simp [Ideal.ofBits, Ideal.ieee]

/-- The largest of a row's 256 entries. -/
theorem rowMax_apply (src : FVec Ideal S2048x256 .f32) (hφ : FKind.Formats .f32)
    (hacc : (0xFF800000#32 : BitVec 32) = 0xFF800000#32) (r : Fin 2048) :
    multiReduction .maximumf [1] S2048 src 0xFF800000#32 reduces_S2048x256_S2048 hφ hacc (ix1 r)
      = ⨆ m : Fin 256, src (ix2 r m) := by
  refine (Ideal.multiReduction_maximumf_single src 0xFF800000#32 reduces_S2048x256_S2048 hφ hacc (ix1 r)).trans ?_
  rw [Ideal.ofBits_def, ofBits_neg_inf]
  refine (show (Finset.univ : Finset (Fin 256)).fold max (⊥ : EReal) (src ∘ reduces_S2048x256_S2048.lift (ix1 r))
      = (Finset.univ : Finset (Fin 256)).sup (src ∘ reduces_S2048x256_S2048.lift (ix1 r)) from rfl).trans ?_
  rw [Finset.sup_univ_eq_iSup]
  refine iSup_congr fun m => congrArg src (funext fun ax => Fin.ext ?_)
  match ax with
  | ⟨0, _⟩ => rfl
  | ⟨1, _⟩ => rfl

/-! ## The layout operations read at an index -/

/-- A list of 2048 values as one column. -/
theorem col_apply {α : Type} (v : S2048.Idx → α) (r : Fin 2048) (u : Fin 1) :
    shapeCast S2048x1 v shapeCasts_S2048_S2048x1 (ix2 r u) = v (ix1 r) :=
  shapeCast_apply v shapeCasts_S2048_S2048x1 (ix2 r u) (ix1 r) (by
    have hu : u.val = 0 := by omega
    rw [Shape.rowMajor_val_one, Shape.rowMajor_val_two]
    show r.val = r.val * 1 + u.val
    rw [hu, Nat.mul_one, Nat.add_zero])

/-- One column repeated along each row's 256 entries. -/
theorem colBroadcast_apply {α : Type} (v : S2048x1.Idx → α) (r : Fin 2048) (m : Fin 256) :
    broadcastTo S2048x256 v broadcasts_S2048x1_S2048x256 (ix2 r m) = v (ix2 r (0 : Fin 1)) := by
  refine broadcastTo_apply v broadcasts_S2048x1_S2048x256 (ix2 r m) (ix2 r (0 : Fin 1)) fun ax => ?_
  match ax with
  | ⟨0, _⟩ => rfl
  | ⟨1, _⟩ => rfl

/-! ## The stored value at an index -/

/-- The exponential of a vector, entry by entry. -/
theorem exp_apply {s : Shape} {φ : FTy} (a : FVec Ideal s φ) (i : s.Idx) : exp a i = Ideal.exp (a i) := rfl

/-- The body's stored value at row `r`, column `e` of its block: the row's features against the context's column,
    the features stabilised by the row's own largest logit. -/
theorem pay2_apply (x0 : Vec Ideal S1x2048x64 .f32) (x1 : Vec Ideal S64x256 .f32) (x2 : Vec Ideal S1x256x64 .f32)
    (r : Fin 2048) (e : Fin 64) :
    k2_pay1 x0 x1 x2 (ix3 (0 : Fin 1) r e)
      = ∑ m : Fin 256, Cert.Spec.feat (fun d => x0 (ix3 (0 : Fin 1) r d)) (fun m d => x1 (ix2 d m))
          (Cert.Spec.rowMax (fun d => x0 (ix3 (0 : Fin 1) r d)) (fun m d => x1 (ix2 d m))) m * x2 (ix3 (0 : Fin 1) m e) := by
  unfold k2_pay1
  simp only [shapeCast_ab_1ab_apply, matmulFC_apply, truncf_apply, shapeCast_1ab_ab_apply, mulf_apply, addf_apply, subf_apply,
    exp_apply, broadcast_apply, colBroadcast_apply, col_apply, matmulQP_apply, shapeCast_self,
    Ideal.ofBits_def, Cert.Spec.feat, Cert.Spec.logit, Cert.Spec.hnorm, Cert.Spec.rowMax, Cert.Spec.dn, Cert.Spec.c16, Cert.Spec.eps]
  rw [rowSum_apply, rowMax_apply]
  simp only [truncf_apply, shapeCast_1ab_ab_apply, mulf_apply, broadcast_apply, matmulQP_apply, shapeCast_self]

/-! ## From the block to the array -/

/-- The body's stored value at row `r`, column `e`, when its three blocks are read off the arrays `q`, `pt`, `ctx` at head
    `g`, the block's rows being the array's rows `n r`: the specification's result at `(g, n r, e)`. -/
theorem block_value (q : Vec Ideal S64x4096x64 .f32) (pt : Vec Ideal S64x256 .f32) (ctx : Vec Ideal S64x256x64 .f32)
    (x0 : Vec Ideal S1x2048x64 .f32) (x1 : Vec Ideal S64x256 .f32) (x2 : Vec Ideal S1x256x64 .f32)
    (g : Fin 64) (n : Fin 2048 → Fin 4096)
    (h0 : ∀ r d, x0 (ix3 (0 : Fin 1) r d) = q (ix3 g (n r) d))
    (h1 : ∀ d m, x1 (ix2 d m) = pt (ix2 d m))
    (h2 : ∀ m e, x2 (ix3 (0 : Fin 1) m e) = ctx (ix3 g m e))
    (r : Fin 2048) (e : Fin 64) :
    k2_pay1 x0 x1 x2 (ix3 (0 : Fin 1) r e) = Cert.Spec.outK q pt ctx (ix3 g (n r) e) := by
  rw [pay2_apply]
  have hrow : (fun d => x0 (ix3 (0 : Fin 1) r d)) = Cert.Spec.row3 q g (n r) := funext fun d => h0 r d
  have hp : (fun m d => x1 (ix2 d m)) = Cert.Spec.projOfT pt := funext fun m => funext fun d => h1 d m
  rw [hrow, hp]
  show _ = ∑ m : Fin 256, Cert.Spec.feat (Cert.Spec.row3 q g (n r)) (Cert.Spec.projOfT pt)
      (Cert.Spec.rowMax (Cert.Spec.row3 q g (n r)) (Cert.Spec.projOfT pt)) m * ctx (ix3 g m e)
  exact Finset.sum_congr rfl fun m _ => by rw [h2 m e]

/-- The windows' block indices at every point of the grid: point `t` is head `t / 2`, tile `t % 2`. -/
theorem idx_facts2 : ∀ t : Fin cfg2.N,
      win2_0.index t (0 : Fin 3) = t.val / 2 ∧ win2_0.index t (1 : Fin 3) = t.val % 2 ∧ win2_0.index t (2 : Fin 3) = 0
    ∧ win2_1.index t (0 : Fin 2) = 0 ∧ win2_1.index t (1 : Fin 2) = 0
    ∧ win2_2.index t (0 : Fin 3) = t.val / 2 ∧ win2_2.index t (1 : Fin 3) = 0 ∧ win2_2.index t (2 : Fin 3) = 0
    ∧ win2_3.index t (0 : Fin 3) = t.val / 2 ∧ win2_3.index t (1 : Fin 3) = t.val % 2 ∧ win2_3.index t (2 : Fin 3) = 0 :=
  (by decide +kernel : ∀ t : Fin grid2.N, _)

/-- A point is below 128. -/
theorem point_lt (t : Fin cfg2.N) : t.val < 128 := lt_of_lt_of_eq t.isLt N_2

/-- The head of point `t`. -/
def headOf (t : Fin cfg2.N) : Fin 64 := ⟨t.val / 2, by have := point_lt t; omega⟩
/-- The array's row that row `r` of point `t`'s tile is. -/
def rowOf (t : Fin cfg2.N) (r : Fin 2048) : Fin 4096 := ⟨t.val % 2 * 2048 + r.val, by omega⟩

/-- The queries' block at point `t` is the head's tile of rows. -/
theorem qblock_apply (c : Dev nD) (t : Fin cfg2.N) (r : Fin 2048) (d : Fin 64) :
    iblk2 V c 0 t (ix3 (0 : Fin 1) r d) = V c main_v0 (ix3 (headOf t) (rowOf t r) d) := by
  obtain ⟨e0, e1, e2, -⟩ := idx_facts2 t
  show V c main_v0 (((cfg2.win 0).blk t).view.emb (ix3 (0 : Fin 1) r d)) = _
  refine congrArg (V c main_v0) (funext fun a => Fin.ext ?_)
  match a with
  | ⟨0, _⟩ => show win2_0.index t (0 : Fin 3) * 1 + 1 * 0 = t.val / 2; omega
  | ⟨1, _⟩ => show win2_0.index t (1 : Fin 3) * 2048 + 1 * r.val = t.val % 2 * 2048 + r.val; omega
  | ⟨2, _⟩ => show win2_0.index t (2 : Fin 3) * 64 + 1 * d.val = d.val; omega

/-- The projection's block at every point is the whole transposed projection. -/
theorem pblock_apply (c : Dev nD) (t : Fin cfg2.N) (d : Fin 64) (m : Fin 256) :
    iblk2 V c 1 t (ix2 d m) = V c main_v3 (ix2 d m) := by
  obtain ⟨-, -, -, e0, e1, -⟩ := idx_facts2 t
  show V c main_v3 (((cfg2.win 1).blk t).view.emb (ix2 d m)) = _
  refine congrArg (V c main_v3) (funext fun a => Fin.ext ?_)
  match a with
  | ⟨0, _⟩ => show win2_1.index t (0 : Fin 2) * 64 + 1 * d.val = d.val; omega
  | ⟨1, _⟩ => show win2_1.index t (1 : Fin 2) * 256 + 1 * m.val = m.val; omega

/-- The context's block at point `t` is the head's context. -/
theorem cblock_apply (c : Dev nD) (t : Fin cfg2.N) (m : Fin 256) (e : Fin 64) :
    iblk2 V c 2 t (ix3 (0 : Fin 1) m e) = V c main_v6 (ix3 (headOf t) m e) := by
  obtain ⟨-, -, -, -, -, e0, e1, e2, -⟩ := idx_facts2 t
  show V c main_v6 (((cfg2.win 2).blk t).view.emb (ix3 (0 : Fin 1) m e)) = _
  refine congrArg (V c main_v6) (funext fun a => Fin.ext ?_)
  match a with
  | ⟨0, _⟩ => show win2_2.index t (0 : Fin 3) * 1 + 1 * 0 = t.val / 2; omega
  | ⟨1, _⟩ => show win2_2.index t (1 : Fin 3) * 256 + 1 * m.val = m.val; omega
  | ⟨2, _⟩ => show win2_2.index t (2 : Fin 3) * 64 + 1 * e.val = e.val; omega

/-- What point `t` writes back is its block of the specification's result. -/
theorem flushed2_eq (c : Dev nD) (t : Fin cfg2.N) :
    (dat2 (F := Ideal) V c).flushed 3 t
      = ((cfg2.win 3).blk t).view.read (Elt Ideal) (Cert.Spec.outK (V c main_v0) (V c main_v3) (V c main_v6)) := by
  show (cfg2.win 3).cut (grid2.coords t) ((dat2 V c).after 3 t) = _
  rw [after2_3]
  refine funext fun (j : S1x2048x64.Idx) => ?_
  obtain ⟨u, r, e, rfl⟩ : ∃ (u : Fin 1) (r : Fin 2048) (e : Fin 64), j = ix3 u r e := ⟨j 0, j 1, j 2, eq_ix3 j⟩
  obtain rfl : u = 0 := Subsingleton.elim _ _
  show k2_pay1 (iblk2 V c 0 t) (iblk2 V c 1 t) (iblk2 V c 2 t) (ix3 (0 : Fin 1) r e)
    = Cert.Spec.outK (V c main_v0) (V c main_v3) (V c main_v6) (((cfg2.win 3).blk t).view.emb (ix3 (0 : Fin 1) r e))
  obtain ⟨-, -, -, -, -, -, -, -, e0, e1, e2⟩ := idx_facts2 t
  have hi : ((cfg2.win 3).blk t).view.emb (ix3 (0 : Fin 1) r e) = ix3 (headOf t) (rowOf t r) e := funext fun a => Fin.ext (by
    match a with
    | ⟨0, _⟩ => show win2_3.index t (0 : Fin 3) * 1 + 1 * 0 = t.val / 2; omega
    | ⟨1, _⟩ => show win2_3.index t (1 : Fin 3) * 2048 + 1 * r.val = t.val % 2 * 2048 + r.val; omega
    | ⟨2, _⟩ => show win2_3.index t (2 : Fin 3) * 64 + 1 * e.val = e.val; omega)
  rw [hi]
  exact block_value (V c main_v0) (V c main_v3) (V c main_v6) (iblk2 V c 0 t) (iblk2 V c 1 t) (iblk2 V c 2 t)
    (headOf t) (rowOf t) (qblock_apply V c t) (pblock_apply V c t) (cblock_apply V c t) r e

/-- An index of the result is in point `t`'s block iff each coordinate is in the block's range on its axis. -/
theorem mem_blk2 (t : Fin cfg2.N) (i : S64x4096x64.Idx) :
    i ∈ ((cfg2.win 3).blk t).view.set ↔ ∀ a : Fin 3, win2_3.index t a * S1x2048x64.size a ≤ (i a).val
      ∧ (i a).val < win2_3.index t a * S1x2048x64.size a + S1x2048x64.size a := by
  show i ∈ ((View.whole main_v7).slice (win2_3.rect t)).set ↔ _
  rw [View.set_slice_whole, Rect.mem_set_unit]
  exact Iff.rfl

/-- Every index of the result is in the block of the point of its head and tile. -/
theorem cover2 (i : S64x4096x64.Idx) :
    ∃ t : Fin cfg2.N, (cfg2.win 3).flush t = true ∧ i ∈ ((cfg2.win 3).blk t).view.set := by
  have h0 : (i 0).val < 64 := (i 0).isLt
  have h1 : (i 1).val < 4096 := (i 1).isLt
  have h2 : (i 2).val < 64 := (i 2).isLt
  obtain ⟨t, ht⟩ : ∃ t : Fin cfg2.N, t.val = 2 * (i 0).val + (i 1).val / 2048 :=
    ⟨⟨2 * (i 0).val + (i 1).val / 2048, lt_of_lt_of_eq (by omega : 2 * (i 0).val + (i 1).val / 2048 < 128) N_2.symm⟩, rfl⟩
  obtain ⟨-, -, -, -, -, -, -, -, e0, e1, e2⟩ := idx_facts2 t
  refine ⟨t, flush2_3 t, ?_⟩
  rw [mem_blk2]
  intro a
  match a with
  | ⟨0, _⟩ =>
    show win2_3.index t (0 : Fin 3) * 1 ≤ (i 0).val ∧ (i 0).val < win2_3.index t (0 : Fin 3) * 1 + 1
    omega
  | ⟨1, _⟩ =>
    show win2_3.index t (1 : Fin 3) * 2048 ≤ (i 1).val ∧ (i 1).val < win2_3.index t (1 : Fin 3) * 2048 + 2048
    omega
  | ⟨2, _⟩ =>
    show win2_3.index t (2 : Fin 3) * 64 ≤ (i 2).val ∧ (i 2).val < win2_3.index t (2 : Fin 3) * 64 + 64
    omega

end R2

open R2 in
/-- After the third region its result holds every head's output rows. -/
theorem arr2 (c : Dev nD) (i : S64x4096x64.Idx) :
    (dat2 (F := Ideal) V c).arrAt 3 cfg2.N i = Cert.Spec.outK (V c main_v0) (V c main_v3) (V c main_v6) i :=
  congrFun ((dat2 (F := Ideal) V c).arrAt_eq_of_cover 3 (Cert.Spec.outK (V c main_v0) (V c main_v3) (V c main_v6))
    (fun t _ => flushed2_eq V c t) cover2) i

end Cert.KernelIdeal.Val

end
-- ==== Proof.KI.ValRun.lean ====
/-
  The kernel's program's result as one function of its four arguments, at the ideal values: the buffers' contents
  walked back through the fold. The last host operation splits the heads of the third region's result; that result is
  the output rows of the queries, the transposed projection and the second region's result; that one is the context of
  the keys, the values, the transposed projection and the first region's result, the largest key logit; and the first
  host operations merge the heads of the arguments, transpose the projection and flatten the keys. Each layout
  operation read at an index is the specification's re-arrangement of the same name.
-/
import proofs.«103724_j47090021433765_1_alg».proof.Proof.KI.RunDefs
import proofs.«103724_j47090021433765_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

-- the three regions' results at the ideal values, for any entry contents: what the walk below takes of them
variable (h0 : ∀ (V : (c : Dev nD) → (b : Ref sig .tc) → Buf (Elt Ideal) ((c : Thread nD τ).loc b)) (c : Dev nD) (i : S1x1.Idx),
    (dat0 (F := Ideal) V c).arrAt 2 cfg0.N i = Cert.Spec.gmaxK (V c main_v4) (V c main_v3))
variable (h1 : ∀ (V : (c : Dev nD) → (b : Ref sig .tc) → Buf (Elt Ideal) ((c : Thread nD τ).loc b)) (c : Dev nD) (i : S64x256x64.Idx),
    (dat1 (F := Ideal) V c).arrAt 4 cfg1.N i = Cert.Spec.ctxK (V c main_v1) (V c main_v2) (V c main_v3) (V c main_v5 (ix2 0 0)) i)
variable (h2 : ∀ (V : (c : Dev nD) → (b : Ref sig .tc) → Buf (Elt Ideal) ((c : Thread nD τ).loc b)) (c : Dev nD) (i : S64x4096x64.Idx),
    (dat2 (F := Ideal) V c).arrAt 3 cfg2.N i = Cert.Spec.outK (V c main_v0) (V c main_v3) (V c main_v6) i)

/-! ## The layout operations read at an index -/

/-- Merging the two leading axes: position `(g, n, d)` of the result is position `(g / 16, g % 16, n, d)` of the operand. -/
theorem shapeCast_heads (x : Cert.Spec.T4.Idx → EReal) (h : Cert.Spec.T4.ShapeCasts Cert.Spec.T3) :
    shapeCast Cert.Spec.T3 x h = Cert.Spec.heads x := by
  funext j
  unfold Cert.Spec.heads
  refine shapeCast_apply x h j _ ?_
  rw [Shape.rowMajor_val_four, Shape.rowMajor_val_three]
  have h0 : (j 0).val < 64 := (j 0).isLt
  show ((((j 0).val / 16) * 16 + (j 0).val % 16) * 4096 + (j 1).val) * 64 + (j 2).val
      = ((j 0).val * 4096 + (j 1).val) * 64 + (j 2).val
  omega

/-- Splitting the leading axis again: position `(b, h, n, d)` of the result is position `(16 b + h, n, d)` of the operand. -/
theorem shapeCast_unheads (y : Cert.Spec.T3.Idx → EReal) (h : Cert.Spec.T3.ShapeCasts Cert.Spec.T4) :
    shapeCast Cert.Spec.T4 y h = Cert.Spec.unheads y := by
  funext i
  unfold Cert.Spec.unheads
  refine shapeCast_apply y h i _ ?_
  rw [Shape.rowMajor_val_four, Shape.rowMajor_val_three]
  rfl

/-- The heads' rows in one list: position `(r, d)` of the result is position `(r / 4096, r % 4096, d)` of the operand. -/
theorem shapeCast_flatRows (x : Cert.Spec.T3.Idx → EReal) (h : Cert.Spec.T3.ShapeCasts Cert.Spec.TK) :
    shapeCast Cert.Spec.TK x h = Cert.Spec.flatRows x := by
  funext j
  unfold Cert.Spec.flatRows
  refine shapeCast_apply x h j _ ?_
  rw [Shape.rowMajor_val_three, Shape.rowMajor_val_two]
  have h0 : (j 0).val < 262144 := (j 0).isLt
  show (((j 0).val / 4096) * 4096 + (j 0).val % 4096) * 64 + (j 1).val = (j 0).val * 64 + (j 1).val
  omega

/-- The projection transposed: position `(d, m)` of the result is position `(m, d)` of the operand. -/
theorem transpose_transp (p : Cert.Spec.TP.Idx → EReal) (h : Cert.Spec.TP.Transposes [1, 0] Cert.Spec.TPt) :
    transpose Cert.Spec.TPt [1, 0] p h = Cert.Spec.transp p := by
  funext j
  unfold Cert.Spec.transp
  rw [eq_ix2 j]
  exact transpose_ix2_apply p h (j 0) (j 1)

/-! ## The four arguments at launch -/

/-- The queries, the keys, the values and the projection as the launch memory holds them. -/
abbrev aq (c : Dev nD) : Cert.Spec.T4.Idx → EReal := m ((c : Thread nD τ).loc main_arg0)
abbrev ak (c : Dev nD) : Cert.Spec.T4.Idx → EReal := m ((c : Thread nD τ).loc main_arg1)
abbrev av (c : Dev nD) : Cert.Spec.T4.Idx → EReal := m ((c : Thread nD τ).loc main_arg2)
abbrev ap (c : Dev nD) : Cert.Spec.TP.Idx → EReal := m ((c : Thread nD τ).loc main_arg3)

/-! ## The first host stretch: heads merged, the projection transposed, the keys' rows flattened -/

theorem V1_v0 (c : Dev nD) : V1 (F := Ideal) m c main_v0 = Cert.Spec.heads (aq m c) := by
  refine Eq.trans ?_ (shapeCast_heads (aq m c) shapeCasts_S4x16x4096x64_S64x4096x64)
  show StableHlo.after hostOps0 (W0 m c) (Proc.devRef .tc main_v0) = _
  after_results
  try rfl

theorem V1_v1 (c : Dev nD) : V1 (F := Ideal) m c main_v1 = Cert.Spec.heads (ak m c) := by
  refine Eq.trans ?_ (shapeCast_heads (ak m c) shapeCasts_S4x16x4096x64_S64x4096x64)
  show StableHlo.after hostOps0 (W0 m c) (Proc.devRef .tc main_v1) = _
  after_results
  try rfl

theorem V1_v2 (c : Dev nD) : V1 (F := Ideal) m c main_v2 = Cert.Spec.heads (av m c) := by
  refine Eq.trans ?_ (shapeCast_heads (av m c) shapeCasts_S4x16x4096x64_S64x4096x64)
  show StableHlo.after hostOps0 (W0 m c) (Proc.devRef .tc main_v2) = _
  after_results
  try rfl

theorem V1_v3 (c : Dev nD) : V1 (F := Ideal) m c main_v3 = Cert.Spec.transp (ap m c) := by
  refine Eq.trans ?_ (transpose_transp (ap m c) transposes_S256x64_S64x256_1_0)
  show StableHlo.after hostOps0 (W0 m c) (Proc.devRef .tc main_v3) = _
  after_results
  try rfl

theorem V1_v4 (c : Dev nD) : V1 (F := Ideal) m c main_v4 = Cert.Spec.flatRows (Cert.Spec.heads (ak m c)) := by
  refine Eq.trans ?_ ((congrArg (fun y => shapeCast Cert.Spec.TK y shapeCasts_S64x4096x64_S262144x64)
    (shapeCast_heads (ak m c) shapeCasts_S4x16x4096x64_S64x4096x64)).trans (shapeCast_flatRows _ shapeCasts_S64x4096x64_S262144x64))
  show StableHlo.after hostOps0 (W0 m c) (Proc.devRef .tc main_v4) = _
  after_results
  try rfl

/-! ## Through the first region -/

/-- The projection is an input window's array of the first region: it leaves as it entered. -/
theorem V2_v3 (c : Dev nD) : V2 (F := Ideal) m c main_v3 = V1 m c main_v3 :=
  (W2_arr m c 1).trans (((dat0 (V1 m) c).arrAt_in 1 rfl _).trans (A_eq0 (V1 m) c 1))

/-- The keys and the values are no array of the first region's windows. -/
theorem V2_v1 (c : Dev nD) : V2 (F := Ideal) m c main_v1 = V1 m c main_v1 := W2_of_ne m c main_v1 (by decide)
theorem V2_v2 (c : Dev nD) : V2 (F := Ideal) m c main_v2 = V1 m c main_v2 := W2_of_ne m c main_v2 (by decide)

include h0 in
/-- The first region's result: the largest logit of all the keys' rows. -/
theorem V2_v5 (c : Dev nD) :
    V2 (F := Ideal) m c main_v5 (ix2 0 0)
      = Cert.Spec.gmaxK (Cert.Spec.flatRows (Cert.Spec.heads (ak m c))) (Cert.Spec.transp (ap m c)) :=
  (congrFun (W2_arr m c 2) (ix2 0 0)).trans ((h0 (V1 m) c (ix2 0 0)).trans (by rw [V1_v4, V1_v3]))

/-! ## Through the second region -/

/-- The projection is an input window's array of the second region too. -/
theorem V3_v3 (c : Dev nD) : V3 (F := Ideal) m c main_v3 = V1 m c main_v3 :=
  ((W3_arr m c 2).trans (((dat1 (V2 m) c).arrAt_in 2 rfl _).trans (A_eq1 (V2 m) c 2))).trans (V2_v3 m c)

/-- The queries are no array of the first two regions' windows. -/
theorem V3_v0 (c : Dev nD) : V3 (F := Ideal) m c main_v0 = V1 m c main_v0 :=
  (W3_of_ne m c main_v0 (by decide)).trans (W2_of_ne m c main_v0 (by decide))

include h0 h1 in
/-- The second region's result: every head's context under the keys' stabiliser. -/
theorem V3_v6 (c : Dev nD) :
    V3 (F := Ideal) m c main_v6
      = Cert.Spec.ctxK (Cert.Spec.heads (ak m c)) (Cert.Spec.heads (av m c)) (Cert.Spec.transp (ap m c))
          (Cert.Spec.gmaxK (Cert.Spec.flatRows (Cert.Spec.heads (ak m c))) (Cert.Spec.transp (ap m c))) := by
  funext i
  refine (congrFun (W3_arr m c 4) i).trans ((h1 (V2 m) c i).trans ?_)
  rw [V2_v5 m h0, V2_v1, V2_v2, V2_v3, V1_v1, V1_v2, V1_v3]

/-! ## Through the third region and the last host operation -/

include h0 h1 h2 in
/-- The third region's result: every head's output rows. -/
theorem W4_v7 (c : Dev nD) :
    W4 (F := Ideal) m c (Proc.devRef .tc main_v7)
      = Cert.Spec.outK (Cert.Spec.heads (aq m c)) (Cert.Spec.transp (ap m c))
          (Cert.Spec.ctxK (Cert.Spec.heads (ak m c)) (Cert.Spec.heads (av m c)) (Cert.Spec.transp (ap m c))
            (Cert.Spec.gmaxK (Cert.Spec.flatRows (Cert.Spec.heads (ak m c))) (Cert.Spec.transp (ap m c)))) := by
  funext i
  refine (congrFun (W4_arr m c 3) i).trans ((h2 (V3 m) c i).trans ?_)
  rw [V3_v6 m h0 h1, V3_v0, V3_v3, V1_v0, V1_v3]

/-- The last host operation splits the heads of the third region's result. -/
theorem W5_v8 (c : Dev nD) :
    W5 (F := Ideal) m c (Proc.devRef .tc main_v8)
      = shapeCast S4x16x4096x64 (W4 (F := Ideal) m c (Proc.devRef .tc main_v7)) shapeCasts_S64x4096x64_S4x16x4096x64 := by
  show StableHlo.after hostOps3 (W4 m c) (Proc.devRef .tc main_v8) = _
  after_results
  try rfl

include h0 h1 h2 in
/-- What the kernel's program returns: the head-at-a-time specification of its four arguments, the heads merged by the
    first host operations and split again by the last. -/
theorem kernel_value (c : Dev nD) :
    W5 (F := Ideal) m c (Proc.devRef .tc main_v8)
      = Cert.Spec.kernelOut (m ((c : Thread nD τ).loc main_arg0)) (m ((c : Thread nD τ).loc main_arg1))
          (m ((c : Thread nD τ).loc main_arg2)) (m ((c : Thread nD τ).loc main_arg3)) := by
  rw [W5_v8, W4_v7 m h0 h1 h2]
  exact shapeCast_unheads _ shapeCasts_S64x4096x64_S4x16x4096x64

end Cert.KernelIdeal.Val

end
-- ==== Proof.RefStages.lean ====
/-
  The reference read stage by stage over the extended reals: logits, half squared norms, the per-row and the global
  maximum (folds of `max` from the least element, hence suprema), the features, the context and the result, each at an
  index through the stage's read lemma; together they are the four-axis specification.
-/
import proofs.«103724_j47090021433765_1_alg».proof.Proof.Gen.ReferenceIdeal.Read
import proofs.«103724_j47090021433765_1_alg».proof.Proof.Spec
import Idealize.ShloMosaic.PureOps.Ideal.Laws
import Idealize.ShloMosaic.Lib.ValueIdx
import Idealize.ShloMosaic.Lib.Pipeline.Value

noncomputable section

namespace Cert.ReferenceIdeal.RefStages

open Cert.ReferenceIdeal Cert.ReferenceIdeal.Gen Cert.ReferenceIdeal.Read
open Idealize.ShloMosaic Idealize.ShloMosaic.ValueIdx Idealize.ShloMosaic.StableHlo

/-! ## The arguments' types -/

/-- A four-axis argument: queries, keys or values. -/
abbrev A4 := (⟨S4x16x4096x64, .f32⟩ : BufTy).Contents (Elt Ideal)
/-- The projection argument. -/
abbrev AP := (⟨S256x64, .f32⟩ : BufTy).Contents (Elt Ideal)

/-! ## The logits: `∑ d, (dn · x d) · p m d` -/

/-- The query logits at `(b, h, n, m)`. -/
theorem v2_at (x0 : A4) (x3 : AP) (b : Fin 4) (h : Fin 16) (n : Fin 4096) (m : Fin 256) :
    val_main_v2 (F := Ideal) x0 x3 (ix4 b h n m) = Cert.Spec.logit (Cert.Spec.row4 x0 b h n) (Cert.Spec.projOf x3) m := by
  rw [val_main_v2_apply]
  unfold Cert.Spec.logit Cert.Spec.row4 Cert.Spec.projOf
  refine Finset.sum_congr rfl fun d _ => ?_
  have e1 : lidx_main_v2 (ix4 b h n m) d = ix4 b h n d := funext fun a => Fin.ext (by
    match a with | ⟨0, _⟩ => rfl | ⟨1, _⟩ => rfl | ⟨2, _⟩ => rfl | ⟨3, _⟩ => rfl)
  have e2 : ridx_main_v2 (ix4 b h n m) d = ix2 m d := funext fun a => Fin.ext (by
    match a with | ⟨0, _⟩ => rfl | ⟨1, _⟩ => rfl)
  rw [e1, e2, val_main_v1_apply, val_main_v0_apply, val_main_cst_apply]
  rfl

/-- The key logits at `(b, h, n, m)`. -/
theorem v21_at (x1 : A4) (x3 : AP) (b : Fin 4) (h : Fin 16) (n : Fin 4096) (m : Fin 256) :
    val_main_v21 (F := Ideal) x1 x3 (ix4 b h n m) = Cert.Spec.logit (Cert.Spec.row4 x1 b h n) (Cert.Spec.projOf x3) m := by
  rw [val_main_v21_apply]
  unfold Cert.Spec.logit Cert.Spec.row4 Cert.Spec.projOf
  refine Finset.sum_congr rfl fun d _ => ?_
  have e1 : lidx_main_v21 (ix4 b h n m) d = ix4 b h n d := funext fun a => Fin.ext (by
    match a with | ⟨0, _⟩ => rfl | ⟨1, _⟩ => rfl | ⟨2, _⟩ => rfl | ⟨3, _⟩ => rfl)
  have e2 : ridx_main_v21 (ix4 b h n m) d = ix2 m d := funext fun a => Fin.ext (by
    match a with | ⟨0, _⟩ => rfl | ⟨1, _⟩ => rfl)
  rw [e1, e2, val_main_v20_apply, val_main_v19_apply, val_main_cst_5_apply]
  rfl

/-! ## The half squared norms: `(∑ d, x d · x d) · c16` -/

/-- The queries' norm stage at `(b, h, n, 0)`. -/
theorem v7_at (x0 : A4) (b : Fin 4) (h : Fin 16) (n : Fin 4096) :
    val_main_v7 (F := Ideal) x0 (ix4 b h n (0 : Fin 1)) = Cert.Spec.hnorm (Cert.Spec.row4 x0 b h n) := by
  rw [val_main_v7_apply, val_main_v5_apply, val_main_v6_apply, val_main_cst_1_apply, val_main_v4_apply,
    val_main_cst_0_apply]
  unfold Cert.Spec.hnorm Cert.Spec.row4 Cert.Spec.c16
  have e : ∀ d : Fin 64, idx_main_v4 (idx_main_v5 (ix4 b h n (0 : Fin 1))) d = ix4 b h n d := fun d =>
    funext fun a => Fin.ext (by match a with | ⟨0, _⟩ => rfl | ⟨1, _⟩ => rfl | ⟨2, _⟩ => rfl | ⟨3, _⟩ => rfl)
  simp only [e, val_main_v3_apply, Ideal.mulf_def, Ideal.ofBits_def, Ideal.ofBits_zero_f32, zero_add]

/-- The keys' norm stage at `(b, h, n, 0)`. -/
theorem v26_at (x1 : A4) (b : Fin 4) (h : Fin 16) (n : Fin 4096) :
    val_main_v26 (F := Ideal) x1 (ix4 b h n (0 : Fin 1)) = Cert.Spec.hnorm (Cert.Spec.row4 x1 b h n) := by
  rw [val_main_v26_apply, val_main_v24_apply, val_main_v25_apply, val_main_cst_7_apply, val_main_v23_apply,
    val_main_cst_6_apply]
  unfold Cert.Spec.hnorm Cert.Spec.row4 Cert.Spec.c16
  have e : ∀ d : Fin 64, idx_main_v23 (idx_main_v24 (ix4 b h n (0 : Fin 1))) d = ix4 b h n d := fun d =>
    funext fun a => Fin.ext (by match a with | ⟨0, _⟩ => rfl | ⟨1, _⟩ => rfl | ⟨2, _⟩ => rfl | ⟨3, _⟩ => rfl)
  simp only [e, val_main_v22_apply, Ideal.mulf_def, Ideal.ofBits_def, Ideal.ofBits_zero_f32, zero_add]

/-! ## The two maxima -/

/-- A fold of the maximum from `⊥` over a whole finite type is the supremum. -/
theorem fold_maximumf_eq_iSup {ι : Type} [Fintype ι] (f : ι → EReal) :
    (Finset.univ : Finset ι).fold (FloatOps.maximumf (F := Ideal) (φ := .f32)) (⊥ : EReal) f = ⨆ i, f i := by
  rw [← Finset.sup_univ_eq_iSup]; rfl

/-- The initial word of both maxima is `⊥`. -/
theorem ofBits_neg_inf : Ideal.ofBits .f32 0xFF800000#32 = (⊥ : EReal) := by
  simp [Ideal.ofBits, Ideal.ieee]

/-- The largest query logit of row `(b, h, n)`. -/
theorem v8_at (x0 : A4) (x3 : AP) (b : Fin 4) (h : Fin 16) (n : Fin 4096) :
    val_main_v8 (F := Ideal) x0 x3 (ix3 b h n) = Cert.Spec.rowMax (Cert.Spec.row4 x0 b h n) (Cert.Spec.projOf x3) := by
  unfold val_main_v8 Cert.Spec.rowMax
  have hR : S4x16x4096x256.Reduces [3] S4x16x4096 := by decide
  rw [Host.reduce_eq_fold_single _ _ _ _ hR, val_main_cst_2_apply, Ideal.ofBits_def, ofBits_neg_inf]
  refine (fold_maximumf_eq_iSup (ι := Fin 256) _).trans ?_
  refine iSup_congr fun m => ?_
  rw [← v2_at]
  exact congrArg (val_main_v2 (F := Ideal) x0 x3) (funext fun a => Fin.ext (by
    match a with | ⟨0, _⟩ => rfl | ⟨1, _⟩ => rfl | ⟨2, _⟩ => rfl | ⟨3, _⟩ => rfl))

/-- The supremum over a four-axis index set, coordinate by coordinate. -/
theorem iSup_idx4 {n0 n1 n2 n3 : Nat} (f : (⟨4, ![n0, n1, n2, n3]⟩ : Shape).Idx → EReal) :
    (⨆ i, f i) = ⨆ a : Fin n0, ⨆ b : Fin n1, ⨆ c : Fin n2, ⨆ d : Fin n3, f (ix4 a b c d) := by
  apply le_antisymm
  · refine iSup_le fun i => ?_
    rw [eq_ix4 i]
    exact le_iSup_of_le (i 0) (le_iSup_of_le (i 1) (le_iSup_of_le (i 2) (le_iSup_of_le (i 3) le_rfl)))
  · exact iSup_le fun a => iSup_le fun b => iSup_le fun c => iSup_le fun d => le_iSup f (ix4 a b c d)

/-- The largest logit of all key rows. -/
theorem v27_at (x1 : A4) (x3 : AP) :
    val_main_v27 (F := Ideal) x1 x3 ix0 = Cert.Spec.gmaxR x1 x3 := by
  unfold val_main_v27 Cert.Spec.gmaxR
  rw [Host.reduce_eq_fold, val_main_cst_8_apply, Ideal.ofBits_def, ofBits_neg_inf,
    Finset.filter_true_of_mem (fun i _ => funext fun a => a.elim0)]
  refine (fold_maximumf_eq_iSup _).trans ?_
  rw [iSup_idx4]
  exact iSup_congr fun b => iSup_congr fun h => iSup_congr fun n => iSup_congr fun m => v21_at x1 x3 b h n m

/-! ## The features: `c16 · (exp (logit − norm − stab) + eps)` -/

/-- The query features, stabilised by the row's largest logit. -/
theorem v18_at (x0 : A4) (x3 : AP) (b : Fin 4) (h : Fin 16) (n : Fin 4096) (m : Fin 256) :
    val_main_v18 (F := Ideal) x0 x3 (ix4 b h n m)
      = Cert.Spec.feat (Cert.Spec.row4 x0 b h n) (Cert.Spec.projOf x3)
          (Cert.Spec.rowMax (Cert.Spec.row4 x0 b h n) (Cert.Spec.projOf x3)) m := by
  have e10 : idx_main_v10 (ix4 b h n m) = ix4 b h n (0 : Fin 1) := funext fun a => Fin.ext (by
    match a with | ⟨0, _⟩ => rfl | ⟨1, _⟩ => rfl | ⟨2, _⟩ => rfl | ⟨3, _⟩ => rfl)
  have e12 : idx_main_v9 (idx_main_v12 (ix4 b h n m)) = ix3 b h n := funext fun a => Fin.ext (by
    match a with | ⟨0, _⟩ => rfl | ⟨1, _⟩ => rfl | ⟨2, _⟩ => rfl)
  rw [val_main_v18_apply, val_main_v17_apply, val_main_cst_4_apply, val_main_v16_apply, val_main_v14_apply,
    val_main_v15_apply, val_main_cst_3_apply, val_main_v13_apply, val_main_v11_apply, val_main_v10_apply,
    val_main_v12_apply, val_main_v9_apply, e10, e12, v2_at, v7_at, v8_at]
  rfl

/-- The key features, stabilised by the largest logit of all key rows. -/
theorem v36_at (x1 : A4) (x3 : AP) (b : Fin 4) (h : Fin 16) (n : Fin 4096) (m : Fin 256) :
    val_main_v36 (F := Ideal) x1 x3 (ix4 b h n m)
      = Cert.Spec.feat (Cert.Spec.row4 x1 b h n) (Cert.Spec.projOf x3) (Cert.Spec.gmaxR x1 x3) m := by
  have e28 : idx_main_v28 (ix4 b h n m) = ix4 b h n (0 : Fin 1) := funext fun a => Fin.ext (by
    match a with | ⟨0, _⟩ => rfl | ⟨1, _⟩ => rfl | ⟨2, _⟩ => rfl | ⟨3, _⟩ => rfl)
  have e30 : idx_main_v30 (ix4 b h n m) = ix0 := rfl
  rw [val_main_v36_apply, val_main_v35_apply, val_main_cst_10_apply, val_main_v34_apply, val_main_v32_apply,
    val_main_v33_apply, val_main_cst_9_apply, val_main_v31_apply, val_main_v29_apply, val_main_v28_apply,
    val_main_v30_apply, e28, e30, v21_at, v26_at, v27_at]
  rfl

/-! ## The context and the result -/

/-- The context of head `(b, h)` at `(m, e)`. -/
theorem v37_at (x1 x2 : A4) (x3 : AP) (b : Fin 4) (h : Fin 16) (m : Fin 256) (e : Fin 64) :
    val_main_v37 (F := Ideal) x1 x2 x3 (ix4 b h m e)
      = ∑ n : Fin 4096, Cert.Spec.feat (Cert.Spec.row4 x1 b h n) (Cert.Spec.projOf x3) (Cert.Spec.gmaxR x1 x3) m
          * x2 (ix4 b h n e) := by
  rw [val_main_v37_apply]
  refine Finset.sum_congr rfl fun n _ => ?_
  have e1 : lidx_main_v37 (ix4 b h m e) n = ix4 b h n m := funext fun a => Fin.ext (by
    match a with | ⟨0, _⟩ => rfl | ⟨1, _⟩ => rfl | ⟨2, _⟩ => rfl | ⟨3, _⟩ => rfl)
  have e2 : ridx_main_v37 (ix4 b h m e) n = ix4 b h n e := funext fun a => Fin.ext (by
    match a with | ⟨0, _⟩ => rfl | ⟨1, _⟩ => rfl | ⟨2, _⟩ => rfl | ⟨3, _⟩ => rfl)
  rw [e1, e2, v36_at]

/-- The reference's result, stage by stage, is the four-axis specification of the arguments. -/
theorem ref_is_spec (x0 x1 x2 : (⟨S4x16x4096x64, .f32⟩ : BufTy).Contents (Elt Ideal)) (x3 : (⟨S256x64, .f32⟩ : BufTy).Contents (Elt Ideal)) :
    val_main_v38 (F := Ideal) x0 x1 x2 x3 = Cert.Spec.refOut x0 x1 x2 x3 := by
  funext i
  obtain ⟨b, h, n, e, rfl⟩ : ∃ (b : Fin 4) (h : Fin 16) (n : Fin 4096) (e : Fin 64), i = ix4 b h n e :=
    ⟨i 0, i 1, i 2, i 3, eq_ix4 i⟩
  rw [val_main_v38_apply]
  show _ = ∑ m : Fin 256,
    Cert.Spec.feat (Cert.Spec.row4 x0 b h n) (Cert.Spec.projOf x3)
        (Cert.Spec.rowMax (Cert.Spec.row4 x0 b h n) (Cert.Spec.projOf x3)) m
      * ∑ n' : Fin 4096, Cert.Spec.feat (Cert.Spec.row4 x1 b h n') (Cert.Spec.projOf x3) (Cert.Spec.gmaxR x1 x3) m
          * x2 (ix4 b h n' e)
  refine Finset.sum_congr rfl fun m _ => ?_
  have e1 : lidx_main_v38 (ix4 b h n e) m = ix4 b h n m := funext fun a => Fin.ext (by
    match a with | ⟨0, _⟩ => rfl | ⟨1, _⟩ => rfl | ⟨2, _⟩ => rfl | ⟨3, _⟩ => rfl)
  have e2 : ridx_main_v38 (ix4 b h n e) m = ix4 b h m e := funext fun a => Fin.ext (by
    match a with | ⟨0, _⟩ => rfl | ⟨1, _⟩ => rfl | ⟨2, _⟩ => rfl | ⟨3, _⟩ => rfl)
  rw [e1, e2, v18_at, v37_at]

end Cert.ReferenceIdeal.RefStages

end
-- ==== Proof.Bridge.lean ====
/-
  The head-at-a-time arrangement and the four-axis arrangement of the specification are one function: merging the two
  head axes as `16 b + h` and splitting them again re-indexes the same rows, the transposed projection read back is
  the projection, and the largest key logit over the flat rows `65536 b + 4096 h + n` is the supremum over the four
  axes.
-/
import proofs.«103724_j47090021433765_1_alg».proof.Proof.Spec
import Idealize.ShloMosaic.Lib.ValueIdx

noncomputable section

namespace Cert.Spec

open Idealize.ShloMosaic Idealize.ShloMosaic.ValueIdx

/-! ## The merged head axis -/

/-- The merged head `16 b + h` of batch `b` and head `h`. -/
def hd (b : Fin 4) (h : Fin 16) : Fin 64 :=
  ⟨b.val * 16 + h.val, by have := b.isLt; have := h.isLt; omega⟩

/-- Merging the head axes and reading at head `16 b + h` reads the four-axis array at `(b, h)`: the quotient and the
    remainder of `16 b + h` by 16 are `b` and `h`. -/
theorem heads_apply (x : T4.Idx → EReal) (b : Fin 4) (h : Fin 16) (n : Fin 4096) (d : Fin 64) :
    heads x (ix3 (hd b h) n d) = x (ix4 b h n d) := by
  have hb := b.isLt
  have hh := h.isLt
  unfold heads
  refine congrArg x ?_
  funext a
  match a with
  | ⟨0, _⟩ => exact Fin.ext (by show (b.val * 16 + h.val) / 16 = b.val; omega)
  | ⟨1, _⟩ => exact Fin.ext (by show (b.val * 16 + h.val) % 16 = h.val; omega)
  | ⟨2, _⟩ => rfl
  | ⟨3, _⟩ => rfl

/-- Row `n` of the merged head `16 b + h` is row `n` of head `(b, h)`. -/
theorem row3_heads (x : T4.Idx → EReal) (b : Fin 4) (h : Fin 16) (n : Fin 4096) :
    row3 (heads x) (hd b h) n = row4 x b h n :=
  funext fun d => heads_apply x b h n d

/-! ## The transposed projection -/

/-- Transposing the projection and reading it transposed reads the projection itself. -/
theorem projOfT_transp (p : TP.Idx → EReal) : projOfT (transp p) = projOf p := by
  funext m d
  rfl

/-! ## The flat list of key rows -/

/-- Row `65536 b + 4096 h + n` of the flat list of the merged heads' rows is row `n` of head `(b, h)`: the list's row
    `r` is row `r % 4096` of merged head `r / 4096`, and that head is `(r / 4096 / 16, r / 4096 % 16)`. -/
theorem rowK_flat_heads (x : T4.Idx → EReal) (b : Fin 4) (h : Fin 16) (n : Fin 4096) (r : Fin 262144)
    (hr : r.val = 65536 * b.val + 4096 * h.val + n.val) :
    rowK (flatRows (heads x)) r = row4 x b h n := by
  have hb := b.isLt
  have hh := h.isLt
  have hn := n.isLt
  funext d
  unfold rowK flatRows heads row4
  refine congrArg x ?_
  funext a
  match a with
  | ⟨0, _⟩ => exact Fin.ext (by show r.val / 4096 / 16 = b.val; omega)
  | ⟨1, _⟩ => exact Fin.ext (by show r.val / 4096 % 16 = h.val; omega)
  | ⟨2, _⟩ => exact Fin.ext (by show r.val % 4096 = n.val; omega)
  | ⟨3, _⟩ => rfl

/-- The largest logit of all key rows is the same supremum taken over the flat list of rows as over the batch, head and
    row axes: every flat row is a row of some head, and every row of every head is a flat row. -/
theorem gmaxK_eq_gmaxR (k : T4.Idx → EReal) (p : TP.Idx → EReal) :
    gmaxK (flatRows (heads k)) (transp p) = gmaxR k p := by
  unfold gmaxK gmaxR
  rw [projOfT_transp]
  apply le_antisymm
  · refine iSup_le fun r => iSup_le fun m => ?_
    have hr := r.isLt
    rw [rowK_flat_heads k ⟨r.val / 65536, by omega⟩ ⟨r.val / 4096 % 16, Nat.mod_lt _ (by norm_num)⟩
      ⟨r.val % 4096, Nat.mod_lt _ (by norm_num)⟩ r (by show r.val = 65536 * (r.val / 65536) + 4096 * (r.val / 4096 % 16) + r.val % 4096; omega)]
    exact le_iSup_of_le _ (le_iSup_of_le _ (le_iSup_of_le _ (le_iSup_of_le m le_rfl)))
  · refine iSup_le fun b => iSup_le fun h => iSup_le fun n => iSup_le fun m => ?_
    have hb := b.isLt
    have hh := h.isLt
    have hn := n.isLt
    rw [← rowK_flat_heads k b h n ⟨65536 * b.val + 4096 * h.val + n.val, by omega⟩ rfl]
    exact le_iSup_of_le _ (le_iSup_of_le m le_rfl)

/-! ## The two arrangements agree -/

/-- The head-at-a-time arrangement computes the four-axis specification: merging and splitting the head axes and
    transposing the projection re-index the same rows, and the largest key logit is the same supremum over the flat rows
    as over the four axes. -/
theorem kernelOut_eq_refOut (q k v : T4.Idx → EReal) (p : TP.Idx → EReal) : kernelOut q k v p = refOut q k v p := by
  funext i
  obtain ⟨b, h, n, e, rfl⟩ : ∃ (b : Fin 4) (h : Fin 16) (n : Fin 4096) (e : Fin 64), i = ix4 b h n e :=
    ⟨i 0, i 1, i 2, i 3, eq_ix4 i⟩
  show (∑ m : Fin 256,
      feat (row3 (heads q) (hd b h) n) (projOfT (transp p)) (rowMax (row3 (heads q) (hd b h) n) (projOfT (transp p))) m
        * ∑ n' : Fin 4096, feat (row3 (heads k) (hd b h) n') (projOfT (transp p))
            (gmaxK (flatRows (heads k)) (transp p)) m * heads v (ix3 (hd b h) n' e))
    = ∑ m : Fin 256,
      feat (row4 q b h n) (projOf p) (rowMax (row4 q b h n) (projOf p)) m
        * ∑ n' : Fin 4096, feat (row4 k b h n') (projOf p) (gmaxR k p) m * v (ix4 b h n' e)
  simp only [row3_heads, projOfT_transp, gmaxK_eq_gmaxR, heads_apply]

end Cert.Spec

end
-- ==== Proof.lean ====
/-
  Random-feature attention in three kernel stages against its plain reference, over the extended reals.

  The kernel's program merges the two head axes of its arguments, transposes the projection, and runs three kernel
  regions: the largest key logit over all rows (a running maximum over 32 blocks of rows), each head's context (the
  key features against the values, accumulated over the head's two tiles of rows in a scratch buffer and written out at
  the second), and each tile's output rows (the query features against the head's context); a last host operation
  splits the head axes again. The reference computes the same quantities with whole-array operations on four axes.

  The three frames: the kernel's program, at either instance, runs region by region from the launch memory, each
  region's arrays left at what its write-backs make of them, and no host operation or region touches an argument
  (`Hand.frame`); the reference is straight-line host code (its generated run).
  The value claim: the kernel program's result is the head-at-a-time specification of the arguments
  (`Val.kernel_value`: each region's result read off its proof data), the reference's result the four-axis
  specification (`RefStages.ref_is_spec`: stage by stage through the generated read-at-an-index lemmas), and the two
  specifications are one function (`Spec.kernelOut_eq_refOut`: equal rows under the re-indexing, the largest logit one
  supremum). No law of the extended reals beyond commutativity and associativity is used, so the precondition is
  never opened. The idealization rewrote nothing, so `preserves` is `True`.
-/
import proofs.«103724_j47090021433765_1_alg».proof.Defs
import proofs.«103724_j47090021433765_1_alg».proof.Proof.Gen.Kernel
import proofs.«103724_j47090021433765_1_alg».proof.Proof.Gen.KernelIdeal
import proofs.«103724_j47090021433765_1_alg».proof.Proof.Gen.ReferenceIdeal
import proofs.«103724_j47090021433765_1_alg».proof.Proof.Gen.Pre_finite_inputs
import proofs.«103724_j47090021433765_1_alg».proof.Proof.Gen.ReferenceIdeal.Run
import proofs.«103724_j47090021433765_1_alg».proof.Proof.K.Run
import proofs.«103724_j47090021433765_1_alg».proof.Proof.KI.Run
import proofs.«103724_j47090021433765_1_alg».proof.Proof.KI.Val0
import proofs.«103724_j47090021433765_1_alg».proof.Proof.KI.Val1
import proofs.«103724_j47090021433765_1_alg».proof.Proof.KI.Val2
import proofs.«103724_j47090021433765_1_alg».proof.Proof.KI.ValRun
import proofs.«103724_j47090021433765_1_alg».proof.Proof.RefStages
import proofs.«103724_j47090021433765_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does the idealized program: the same text read at the ideal values. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's function of the arguments in their result: the kernel's in the
    head-at-a-time arrangement, the reference's in the four-axis one, and the two arrangements agree. -/
theorem algebraic : Cert.algebraic_KernelIdeal_ReferenceIdeal := by
  intro m ρ m' ρ' _ hagree
  refine ⟨fun c => Cert.Spec.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v8 (by decide))).trans (Cert.KernelIdeal.Val.kernel_value m Cert.KernelIdeal.Val.arr0 Cert.KernelIdeal.Val.arr1 Cert.KernelIdeal.Val.arr2 c),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c),
       (h c _ (Cert.KernelIdeal.Hand.mem_uc Cert.KernelIdeal.main_arg3 (by decide))).trans (Cert.KernelIdeal.Hand.W5_main_arg3 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefStages.ref_is_spec,
      (hagree c).1, (hagree c).2.1, (hagree c).2.2.1, (hagree c).2.2.2]
    exact (Cert.Spec.kernelOut_eq_refOut _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
